-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2 : Shape := ⟨3, ![16, 1024, 2]⟩
abbrev S16x1024x63 : Shape := ⟨3, ![16, 1024, 63]⟩
abbrev S64x63 : Shape := ⟨2, ![64, 63]⟩
abbrev S64 : Shape := ⟨1, ![64]⟩
abbrev S_ : Shape := ⟨0, ![]⟩

class Facts : Prop where
  bcast_S_S16x1024x2 : S_.BroadcastsInDim S16x1024x2 (![] : Fin 0 → Fin S16x1024x2.rank)
  reducesTo_S16x1024x2_S_d0_1_2 : S16x1024x2.ReducesTo [0, 1, 2] S_
  h_S_ : 0 < S_.numel
  bcast_S_S16x1024x63 : S_.BroadcastsInDim S16x1024x63 (![] : Fin 0 → Fin S16x1024x63.rank)
  reducesTo_S16x1024x63_S_d0_1_2 : S16x1024x63.ReducesTo [0, 1, 2] S_
  bcast_S_S64x63 : S_.BroadcastsInDim S64x63 (![] : Fin 0 → Fin S64x63.rank)
  reducesTo_S64x63_S_d0_1 : S64x63.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg3 : IVec S64 32) (main_v13 : IVec S_ 1) (main_v15 : IVec S64 1) (main_c_5 : IVec S_ 32) : IVec S_ 1 :=
  let main_v16 : IVec S64 32 := broadcastInDim S64 ![] bcast_S_S64 main_c_5
  let main_v17 : IVec S64 1 := cmpi .slt main_arg3 main_v16
  let main_v18 : IVec S64 1 := andi main_v15 main_v17
  let main_c_6 : IVec S_ 1 := constantI S_ 1 1#1
  let main_v19 : IVec S_ 1 := (fun x v => Host.reduce IntOp.andi x v reducesTo_S64_S_d0 h_S_) main_v18 main_c_6
  let main_v20 : IVec S_ 1 := andi main_v13 main_v19
  main_v20

def fn {F : FTy → Type} [FloatOps F] (main_arg0 : FVec F S16x1024x2 .f32) (main_arg1 : FVec F S16x1024x63 .f32) (main_arg2 : FVec F S64x63 .f32) (main_arg3 : IVec S64 32) : IVec S_ 1 :=
  let main_v0 : FVec F S16x1024x2 .f32 := Host.absf main_arg0
  let main_cst : FVec F S_ .f32 := constant S_ .f32 0x7F800000#32
  let main_v1 : FVec F S16x1024x2 .f32 := broadcastInDim S16x1024x2 ![] bcast_S_S16x1024x2 main_cst
  let main_v2 : IVec S16x1024x2 1 := cmpf .olt main_v0 main_v1
  let main_c : IVec S_ 1 := constantI S_ 1 1#1
  let main_v3 : IVec S_ 1 := (fun x v => Host.reduce IntOp.andi x v reducesTo_S16x1024x2_S_d0_1_2 h_S_) main_v2 main_c
  let main_v4 : FVec F S16x1024x63 .f32 := Host.absf main_arg1
  let main_cst_0 : FVec F S_ .f32 := constant S_ .f32 0x7F800000#32
  let main_v5 : FVec F S16x1024x63 .f32 := broadcastInDim S16x1024x63 ![] bcast_S_S16x1024x63 main_cst_0
  let main_v6 : IVec S16x1024x63 1 := cmpf .olt main_v4 main_v5
  let main_c_1 : IVec S_ 1 := constantI S_ 1 1#1
  let main_v7 : IVec S_ 1 := (fun x v => Host.reduce IntOp.andi x v reducesTo_S16x1024x63_S_d0_1_2 h_S_) main_v6 main_c_1
  let main_v8 : IVec S_ 1 := andi main_v3 main_v7
  let main_v9 : FVec F S64x63 .f32 := Host.absf main_arg2
  let main_cst_2 : FVec F S_ .f32 := constant S_ .f32 0x7F800000#32
  let main_v10 : FVec F S64x63 .f32 := broadcastInDim S64x63 ![] bcast_S_S64x63 main_cst_2
  let main_v11 : IVec S64x63 1 := cmpf .olt main_v9 main_v10
  let main_c_3 : IVec S_ 1 := constantI S_ 1 1#1
  let main_v12 : IVec S_ 1 := (fun x v => Host.reduce IntOp.andi x v reducesTo_S64x63_S_d0_1 h_S_) main_v11 main_c_3
  let main_v13 : IVec S_ 1 := andi main_v8 main_v12
  let main_c_4 : IVec S_ 32 := constantI S_ 32 0#32
  let main_v14 : IVec S64 32 := broadcastInDim S64 ![] bcast_S_S64 main_c_4
  let main_v15 : IVec S64 1 := cmpi .sge main_arg3 main_v14
  let main_c_5 : IVec S_ 32 := constantI S_ 32 2#32
  fn_part1 (F := F) main_arg3 main_v13 main_v15 main_c_5
-- ==== Kernel.lean ====
abbrev S16x1024x2 : Shape := ⟨3, ![16, 1024, 2]⟩
abbrev S16x1024x63 : Shape := ⟨3, ![16, 1024, 63]⟩
abbrev S64x63 : Shape := ⟨2, ![64, 63]⟩
abbrev S64 : Shape := ⟨1, ![64]⟩
abbrev S16384x2 : Shape := ⟨2, ![16384, 2]⟩
abbrev S16384x63 : Shape := ⟨2, ![16384, 63]⟩
abbrev S64x1 : Shape := ⟨2, ![64, 1]⟩
abbrev S1x2 : Shape := ⟨2, ![1, 2]⟩
abbrev S64x2 : Shape := ⟨2, ![64, 2]⟩
abbrev S16384x64 : Shape := ⟨2, ![16384, 64]⟩
abbrev S4096x63 : Shape := ⟨2, ![4096, 63]⟩
abbrev S4096x2 : Shape := ⟨2, ![4096, 2]⟩
abbrev S4096x64 : Shape := ⟨2, ![4096, 64]⟩
abbrev S63x4096 : Shape := ⟨2, ![63, 4096]⟩
abbrev S2x4096 : Shape := ⟨2, ![2, 4096]⟩
abbrev S64x4096 : Shape := ⟨2, ![64, 4096]⟩
abbrev S1x4096 : Shape := ⟨2, ![1, 4096]⟩
abbrev S4096 : Shape := ⟨1, ![4096]⟩
abbrev S16x1024x64 : Shape := ⟨3, ![16, 1024, 64]⟩

abbrev nBuf : Space → Nat
  | .hbm => 14
  | .vmem => 8
  | .smem => 0
  | _ => 0

abbrev bufTy : (tb : Table) → Fin (tcTables nBuf tb) → BufTy
  | .hbm, ⟨0, _⟩ => ⟨S16x1024x2, .f32⟩
  | .hbm, ⟨1, _⟩ => ⟨S16x1024x63, .f32⟩
  | .hbm, ⟨2, _⟩ => ⟨S64x63, .f32⟩
  | .hbm, ⟨3, _⟩ => ⟨S64, .i32⟩
  | .hbm, ⟨4, _⟩ => ⟨S16384x2, .f32⟩
  | .hbm, ⟨5, _⟩ => ⟨S16384x63, .f32⟩
  | .hbm, ⟨6, _⟩ => ⟨S64x1, .i32⟩
  | .hbm, ⟨7, _⟩ => ⟨S1x2, .i32⟩
  | .hbm, ⟨8, _⟩ => ⟨S64x2, .i32⟩
  | .hbm, ⟨9, _⟩ => ⟨S64x2, .i32⟩
  | .hbm, ⟨10, _⟩ => ⟨S64x2, .i1⟩
  | .hbm, ⟨11, _⟩ => ⟨S64x2, .f32⟩
  | .hbm, ⟨12, _⟩ => ⟨S16384x64, .f32⟩
  | .hbm, ⟨13, _⟩ => ⟨S16x1024x64, .f32⟩
  | .local _ .vmem, ⟨0, _⟩ => ⟨S4096x63, .f32⟩
  | .local _ .vmem, ⟨1, _⟩ => ⟨S4096x63, .f32⟩
  | .local _ .vmem, ⟨2, _⟩ => ⟨S4096x2, .f32⟩
  | .local _ .vmem, ⟨3, _⟩ => ⟨S4096x2, .f32⟩
  | .local _ .vmem, ⟨4, _⟩ => ⟨S64x63, .f32⟩
  | .local _ .vmem, ⟨5, _⟩ => ⟨S64x2, .f32⟩
  | .local _ .vmem, ⟨6, _⟩ => ⟨S4096x64, .f32⟩
  | .local _ .vmem, ⟨7, _⟩ => ⟨S4096x64, .f32⟩
  | _, _ => ⟨S16x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x63 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x1024x2_S16384x2 : S16x1024x2.ShapeCasts S16384x2
  shapeCasts_S16x1024x63_S16384x63 : S16x1024x63.ShapeCasts S16384x63
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  bcast_S1x2_S64x2_0_1 : S1x2.BroadcastsInDim S64x2 (![0, 1] : Fin 2 → Fin S64x2.rank)
  inb_S4096x63_S4096x63_0_0 : ∀ a, (![0, 0] : Fin 2 → Nat) a + S4096x63.size a ≤ S4096x63.size a
  h_S4096x63 : 0 < S4096x63.numel
  shapeCasts_S4096x63_S4096x63 : S4096x63.ShapeCasts S4096x63
  transposes_S4096x63_p1_0_S63x4096 : S4096x63.Transposes [1, 0] S63x4096
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  transposes_S4096x2_p1_0_S2x4096 : S4096x2.Transposes [1, 0] S2x4096
  inb_S64x2_S64x2_0_0 : ∀ a, (![0, 0] : Fin 2 → Nat) a + S64x2.size a ≤ S64x2.size a
  h_S64x2 : 0 < S64x2.numel
  shapeCasts_S64x2_S64x2 : S64x2.ShapeCasts S64x2
  slices_S64x2_o0_0_S64x1 : S64x2.Slices ![0, 0] S64x1
  slices_S2x4096_o0_0_S1x4096 : S2x4096.Slices ![0, 0] S1x4096
  broadcasts_S64x1_S64x4096 : S64x1.Broadcasts S64x4096
  broadcasts_S1x4096_S64x4096 : S1x4096.Broadcasts S64x4096
  slices_S64x2_o0_1_S64x1 : S64x2.Slices ![0, 1] S64x1
  slices_S2x4096_o1_0_S1x4096 : S2x4096.Slices ![1, 0] S1x4096
  inb_S64x63_S64x63_0_0 : ∀ a, (![0, 0] : Fin 2 → Nat) a + S64x63.size a ≤ S64x63.size a
  h_S64x63 : 0 < S64x63.numel
  natLt_1_32 : 1 < 32
  slices_S63x4096_o0_0_S1x4096 : S63x4096.Slices ![0, 0] S1x4096
  shapeCasts_S1x4096_S4096 : S1x4096.ShapeCasts S4096
  slices_S64x63_o0_0_S64x1 : S64x63.Slices ![0, 0] S64x1
  shapeCasts_S4096_S1x4096 : S4096.ShapeCasts S1x4096
  slices_S63x4096_o1_0_S1x4096 : S63x4096.Slices ![1, 0] S1x4096
  slices_S64x63_o0_1_S64x1 : S64x63.Slices ![0, 1] S64x1
  slices_S63x4096_o2_0_S1x4096 : S63x4096.Slices ![2, 0] S1x4096
  slices_S64x63_o0_2_S64x1 : S64x63.Slices ![0, 2] S64x1
  slices_S63x4096_o3_0_S1x4096 : S63x4096.Slices ![3, 0] S1x4096
  slices_S64x63_o0_3_S64x1 : S64x63.Slices ![0, 3] S64x1
  slices_S63x4096_o4_0_S1x4096 : S63x4096.Slices ![4, 0] S1x4096
  slices_S64x63_o0_4_S64x1 : S64x63.Slices ![0, 4] S64x1
  slices_S63x4096_o5_0_S1x4096 : S63x4096.Slices ![5, 0] S1x4096
  slices_S64x63_o0_5_S64x1 : S64x63.Slices ![0, 5] S64x1
  slices_S63x4096_o6_0_S1x4096 : S63x4096.Slices ![6, 0] S1x4096
  slices_S64x63_o0_6_S64x1 : S64x63.Slices ![0, 6] S64x1
  slices_S63x4096_o7_0_S1x4096 : S63x4096.Slices ![7, 0] S1x4096
  slices_S64x63_o0_7_S64x1 : S64x63.Slices ![0, 7] S64x1
  slices_S63x4096_o8_0_S1x4096 : S63x4096.Slices ![8, 0] S1x4096
  slices_S64x63_o0_8_S64x1 : S64x63.Slices ![0, 8] S64x1
  slices_S63x4096_o9_0_S1x4096 : S63x4096.Slices ![9, 0] S1x4096
  slices_S64x63_o0_9_S64x1 : S64x63.Slices ![0, 9] S64x1
  slices_S63x4096_o10_0_S1x4096 : S63x4096.Slices ![10, 0] S1x4096
  slices_S64x63_o0_10_S64x1 : S64x63.Slices ![0, 10] S64x1
  slices_S63x4096_o11_0_S1x4096 : S63x4096.Slices ![11, 0] S1x4096
  slices_S64x63_o0_11_S64x1 : S64x63.Slices ![0, 11] S64x1
  slices_S63x4096_o12_0_S1x4096 : S63x4096.Slices ![12, 0] S1x4096
  slices_S64x63_o0_12_S64x1 : S64x63.Slices ![0, 12] S64x1
  slices_S63x4096_o13_0_S1x4096 : S63x4096.Slices ![13, 0] S1x4096
  slices_S64x63_o0_13_S64x1 : S64x63.Slices ![0, 13] S64x1
  slices_S63x4096_o14_0_S1x4096 : S63x4096.Slices ![14, 0] S1x4096
  slices_S64x63_o0_14_S64x1 : S64x63.Slices ![0, 14] S64x1
  slices_S63x4096_o15_0_S1x4096 : S63x4096.Slices ![15, 0] S1x4096
  slices_S64x63_o0_15_S64x1 : S64x63.Slices ![0, 15] S64x1
  slices_S63x4096_o16_0_S1x4096 : S63x4096.Slices ![16, 0] S1x4096
  slices_S64x63_o0_16_S64x1 : S64x63.Slices ![0, 16] S64x1
  slices_S63x4096_o17_0_S1x4096 : S63x4096.Slices ![17, 0] S1x4096
  slices_S64x63_o0_17_S64x1 : S64x63.Slices ![0, 17] S64x1
  slices_S63x4096_o18_0_S1x4096 : S63x4096.Slices ![18, 0] S1x4096
  slices_S64x63_o0_18_S64x1 : S64x63.Slices ![0, 18] S64x1
  slices_S63x4096_o19_0_S1x4096 : S63x4096.Slices ![19, 0] S1x4096
  slices_S64x63_o0_19_S64x1 : S64x63.Slices ![0, 19] S64x1
  slices_S63x4096_o20_0_S1x4096 : S63x4096.Slices ![20, 0] S1x4096
  slices_S64x63_o0_20_S64x1 : S64x63.Slices ![0, 20] S64x1
  slices_S63x4096_o21_0_S1x4096 : S63x4096.Slices ![21, 0] S1x4096
  slices_S64x63_o0_21_S64x1 : S64x63.Slices ![0, 21] S64x1
  slices_S63x4096_o22_0_S1x4096 : S63x4096.Slices ![22, 0] S1x4096
  slices_S64x63_o0_22_S64x1 : S64x63.Slices ![0, 22] S64x1
  slices_S63x4096_o23_0_S1x4096 : S63x4096.Slices ![23, 0] S1x4096
  slices_S64x63_o0_23_S64x1 : S64x63.Slices ![0, 23] S64x1
  slices_S63x4096_o24_0_S1x4096 : S63x4096.Slices ![24, 0] S1x4096
  slices_S64x63_o0_24_S64x1 : S64x63.Slices ![0, 24] S64x1
  slices_S63x4096_o25_0_S1x4096 : S63x4096.Slices ![25, 0] S1x4096
  slices_S64x63_o0_25_S64x1 : S64x63.Slices ![0, 25] S64x1
  slices_S63x4096_o26_0_S1x4096 : S63x4096.Slices ![26, 0] S1x4096
  slices_S64x63_o0_26_S64x1 : S64x63.Slices ![0, 26] S64x1
  slices_S63x4096_o27_0_S1x4096 : S63x4096.Slices ![27, 0] S1x4096
  slices_S64x63_o0_27_S64x1 : S64x63.Slices ![0, 27] S64x1
  slices_S63x4096_o28_0_S1x4096 : S63x4096.Slices ![28, 0] S1x4096
  slices_S64x63_o0_28_S64x1 : S64x63.Slices ![0, 28] S64x1
  slices_S63x4096_o29_0_S1x4096 : S63x4096.Slices ![29, 0] S1x4096
  slices_S64x63_o0_29_S64x1 : S64x63.Slices ![0, 29] S64x1
  slices_S63x4096_o30_0_S1x4096 : S63x4096.Slices ![30, 0] S1x4096
  slices_S64x63_o0_30_S64x1 : S64x63.Slices ![0, 30] S64x1
  slices_S63x4096_o31_0_S1x4096 : S63x4096.Slices ![31, 0] S1x4096
  slices_S64x63_o0_31_S64x1 : S64x63.Slices ![0, 31] S64x1
  slices_S63x4096_o32_0_S1x4096 : S63x4096.Slices ![32, 0] S1x4096
  slices_S64x63_o0_32_S64x1 : S64x63.Slices ![0, 32] S64x1
  slices_S63x4096_o33_0_S1x4096 : S63x4096.Slices ![33, 0] S1x4096
  slices_S64x63_o0_33_S64x1 : S64x63.Slices ![0, 33] S64x1
  slices_S63x4096_o34_0_S1x4096 : S63x4096.Slices ![34, 0] S1x4096
  slices_S64x63_o0_34_S64x1 : S64x63.Slices ![0, 34] S64x1
  slices_S63x4096_o35_0_S1x4096 : S63x4096.Slices ![35, 0] S1x4096
  slices_S64x63_o0_35_S64x1 : S64x63.Slices ![0, 35] S64x1
  slices_S63x4096_o36_0_S1x4096 : S63x4096.Slices ![36, 0] S1x4096
  slices_S64x63_o0_36_S64x1 : S64x63.Slices ![0, 36] S64x1
  slices_S63x4096_o37_0_S1x4096 : S63x4096.Slices ![37, 0] S1x4096
  slices_S64x63_o0_37_S64x1 : S64x63.Slices ![0, 37] S64x1
  slices_S63x4096_o38_0_S1x4096 : S63x4096.Slices ![38, 0] S1x4096
  slices_S64x63_o0_38_S64x1 : S64x63.Slices ![0, 38] S64x1
  slices_S63x4096_o39_0_S1x4096 : S63x4096.Slices ![39, 0] S1x4096
  slices_S64x63_o0_39_S64x1 : S64x63.Slices ![0, 39] S64x1
  slices_S63x4096_o40_0_S1x4096 : S63x4096.Slices ![40, 0] S1x4096
  slices_S64x63_o0_40_S64x1 : S64x63.Slices ![0, 40] S64x1
  slices_S63x4096_o41_0_S1x4096 : S63x4096.Slices ![41, 0] S1x4096
  slices_S64x63_o0_41_S64x1 : S64x63.Slices ![0, 41] S64x1
  slices_S63x4096_o42_0_S1x4096 : S63x4096.Slices ![42, 0] S1x4096
  slices_S64x63_o0_42_S64x1 : S64x63.Slices ![0, 42] S64x1
  slices_S63x4096_o43_0_S1x4096 : S63x4096.Slices ![43, 0] S1x4096
  slices_S64x63_o0_43_S64x1 : S64x63.Slices ![0, 43] S64x1
  slices_S63x4096_o44_0_S1x4096 : S63x4096.Slices ![44, 0] S1x4096
  slices_S64x63_o0_44_S64x1 : S64x63.Slices ![0, 44] S64x1
  slices_S63x4096_o45_0_S1x4096 : S63x4096.Slices ![45, 0] S1x4096
  slices_S64x63_o0_45_S64x1 : S64x63.Slices ![0, 45] S64x1
  slices_S63x4096_o46_0_S1x4096 : S63x4096.Slices ![46, 0] S1x4096
  slices_S64x63_o0_46_S64x1 : S64x63.Slices ![0, 46] S64x1
  slices_S63x4096_o47_0_S1x4096 : S63x4096.Slices ![47, 0] S1x4096
  slices_S64x63_o0_47_S64x1 : S64x63.Slices ![0, 47] S64x1
  slices_S63x4096_o48_0_S1x4096 : S63x4096.Slices ![48, 0] S1x4096
  slices_S64x63_o0_48_S64x1 : S64x63.Slices ![0, 48] S64x1
  slices_S63x4096_o49_0_S1x4096 : S63x4096.Slices ![49, 0] S1x4096
  slices_S64x63_o0_49_S64x1 : S64x63.Slices ![0, 49] S64x1
  slices_S63x4096_o50_0_S1x4096 : S63x4096.Slices ![50, 0] S1x4096
  slices_S64x63_o0_50_S64x1 : S64x63.Slices ![0, 50] S64x1
  slices_S63x4096_o51_0_S1x4096 : S63x4096.Slices ![51, 0] S1x4096
  slices_S64x63_o0_51_S64x1 : S64x63.Slices ![0, 51] S64x1
  slices_S63x4096_o52_0_S1x4096 : S63x4096.Slices ![52, 0] S1x4096
  slices_S64x63_o0_52_S64x1 : S64x63.Slices ![0, 52] S64x1
  slices_S63x4096_o53_0_S1x4096 : S63x4096.Slices ![53, 0] S1x4096
  slices_S64x63_o0_53_S64x1 : S64x63.Slices ![0, 53] S64x1
  slices_S63x4096_o54_0_S1x4096 : S63x4096.Slices ![54, 0] S1x4096
  slices_S64x63_o0_54_S64x1 : S64x63.Slices ![0, 54] S64x1
  slices_S63x4096_o55_0_S1x4096 : S63x4096.Slices ![55, 0] S1x4096
  slices_S64x63_o0_55_S64x1 : S64x63.Slices ![0, 55] S64x1
  slices_S63x4096_o56_0_S1x4096 : S63x4096.Slices ![56, 0] S1x4096
  slices_S64x63_o0_56_S64x1 : S64x63.Slices ![0, 56] S64x1
  slices_S63x4096_o57_0_S1x4096 : S63x4096.Slices ![57, 0] S1x4096
  slices_S64x63_o0_57_S64x1 : S64x63.Slices ![0, 57] S64x1
  slices_S63x4096_o58_0_S1x4096 : S63x4096.Slices ![58, 0] S1x4096
  slices_S64x63_o0_58_S64x1 : S64x63.Slices ![0, 58] S64x1
  slices_S63x4096_o59_0_S1x4096 : S63x4096.Slices ![59, 0] S1x4096
  slices_S64x63_o0_59_S64x1 : S64x63.Slices ![0, 59] S64x1
  slices_S63x4096_o60_0_S1x4096 : S63x4096.Slices ![60, 0] S1x4096
  slices_S64x63_o0_60_S64x1 : S64x63.Slices ![0, 60] S64x1
  slices_S63x4096_o61_0_S1x4096 : S63x4096.Slices ![61, 0] S1x4096
  slices_S64x63_o0_61_S64x1 : S64x63.Slices ![0, 61] S64x1
  slices_S63x4096_o62_0_S1x4096 : S63x4096.Slices ![62, 0] S1x4096
  slices_S64x63_o0_62_S64x1 : S64x63.Slices ![0, 62] S64x1
  transposes_S64x4096_p1_0_S4096x64 : S64x4096.Transposes [1, 0] S4096x64
  inb_S4096x64_S4096x64_0_0 : ∀ a, (![0, 0] : Fin 2 → Nat) a + S4096x64.size a ≤ S4096x64.size a
  h_S4096x64 : 0 < S4096x64.numel
  shapeCasts_S16384x64_S16x1024x64 : S16384x64.ShapeCasts S16x1024x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x63.size a ≤ S16384x63.size a
  hwx0_0 : ∀ i : grid0.Coords, EltTy.bits .f32 = 32 ∨ (Rect.block (s := S16384x63) S4096x63.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x2.size a ≤ S16384x2.size a
  hwx0_1 : ∀ i : grid0.Coords, EltTy.bits .f32 = 32 ∨ (Rect.block (s := S16384x2) S4096x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x63.size a ≤ S64x63.size a
  hwx0_2 : ∀ i : grid0.Coords, EltTy.bits .f32 = 32 ∨ (Rect.block (s := S64x63) S64x63.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2.size a ≤ S64x2.size a
  hwx0_3 : ∀ i : grid0.Coords, EltTy.bits .f32 = 32 ∨ (Rect.block (s := S64x2) S64x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S16384x64.size a
  hwx0_4 : ∀ i : grid0.Coords, EltTy.bits .f32 = 32 ∨ (Rect.block (s := S16384x64) S4096x64.size (cc0_transform_4 i) (hinb0_4 i)).WholeWords (EltTy.packing .f32)

variable [Facts₀]

abbrev win0_0 : Pipeline.Window sig grid0 :=
  Pipeline.Window.ofSpec (Memref.whole main_v1) S4096x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x63.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4096x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x2 : Shape := ⟨3, ![16, 1024, 2]⟩
abbrev S16x1024x63 : Shape := ⟨3, ![16, 1024, 63]⟩
abbrev S64x63 : Shape := ⟨2, ![64, 63]⟩
abbrev S64 : Shape := ⟨1, ![64]⟩
abbrev S16384x2 : Shape := ⟨2, ![16384, 2]⟩
abbrev S_ : Shape := ⟨0, ![]⟩
abbrev S16384x63 : Shape := ⟨2, ![16384, 63]⟩
abbrev S64x1 : Shape := ⟨2, ![64, 1]⟩
abbrev S16384x64 : Shape := ⟨2, ![16384, 64]⟩
abbrev S16384x1x63 : Shape := ⟨3, ![16384, 1, 63]⟩
abbrev S1x64x63 : Shape := ⟨3, ![1, 64, 63]⟩
abbrev S16384x64x63 : Shape := ⟨3, ![16384, 64, 63]⟩
abbrev S16x1024x64 : Shape := ⟨3, ![16, 1024, 64]⟩

abbrev nBuf : Space → Nat
  | .hbm => 86
  | .vmem => 0
  | .smem => 0
  | _ => 0

abbrev bufTy : (tb : Table) → Fin (tcTables nBuf tb) → BufTy
  | .hbm, ⟨0, _⟩ => ⟨S16x1024x2, .f32⟩
  | .hbm, ⟨1, _⟩ => ⟨S16x1024x63, .f32⟩
  | .hbm, ⟨2, _⟩ => ⟨S64x63, .f32⟩
  | .hbm, ⟨3, _⟩ => ⟨S64, .i32⟩
  | .hbm, ⟨4, _⟩ => ⟨S16384x2, .f32⟩
  | .hbm, ⟨5, _⟩ => ⟨S16384x2, .f32⟩
  | .hbm, ⟨6, _⟩ => ⟨S16384x2, .f32⟩
  | .hbm, ⟨7, _⟩ => ⟨S_, .f32⟩
  | .hbm, ⟨8, _⟩ => ⟨S16384x2, .f32⟩
  | .hbm, ⟨9, _⟩ => ⟨S16384x2, .f32⟩
  | .hbm, ⟨10, _⟩ => ⟨S_, .f32⟩
  | .hbm, ⟨11, _⟩ => ⟨S16384x2, .f32⟩
  | .hbm, ⟨12, _⟩ => ⟨S16384x2, .f32⟩
  | .hbm, ⟨13, _⟩ => ⟨S16384x63, .f32⟩
  | .hbm, ⟨14, _⟩ => ⟨S_, .f32⟩
  | .hbm, ⟨15, _⟩ => ⟨S16384x2, .f32⟩
  | .hbm, ⟨16, _⟩ => ⟨S16384x2, .f32⟩
  | .hbm, ⟨17, _⟩ => ⟨S_, .f32⟩
  | .hbm, ⟨18, _⟩ => ⟨S16384x2, .f32⟩
  | .hbm, ⟨19, _⟩ => ⟨S16384x2, .f32⟩
  | .hbm, ⟨20, _⟩ => ⟨S_, .f32⟩
  | .hbm, ⟨21, _⟩ => ⟨S16384x2, .f32⟩
  | .hbm, ⟨22, _⟩ => ⟨S16384x2, .f32⟩
  | .hbm, ⟨23, _⟩ => ⟨S_, .f32⟩
  | .hbm, ⟨24, _⟩ => ⟨S16384x2, .f32⟩
  | .hbm, ⟨25, _⟩ => ⟨S16384x2, .f32⟩
  | .hbm, ⟨26, _⟩ => ⟨S16384x2, .f32⟩
  | .hbm, ⟨27, _⟩ => ⟨S16384x2, .f32⟩
  | .hbm, ⟨28, _⟩ => ⟨S16384x2, .f32⟩
  | .hbm, ⟨29, _⟩ => ⟨S_, .f32⟩
  | .hbm, ⟨30, _⟩ => ⟨S16384x2, .f32⟩
  | .hbm, ⟨31, _⟩ => ⟨S16384x2, .f32⟩
  | .hbm, ⟨32, _⟩ => ⟨S_, .f32⟩
  | .hbm, ⟨33, _⟩ => ⟨S16384x2, .f32⟩
  | .hbm, ⟨34, _⟩ => ⟨S16384x2, .f32⟩
  | .hbm, ⟨35, _⟩ => ⟨S_, .f32⟩
  | .hbm, ⟨36, _⟩ => ⟨S16384x2, .f32⟩
  | .hbm, ⟨37, _⟩ => ⟨S16384x2, .f32⟩
  | .hbm, ⟨38, _⟩ => ⟨S_, .f32⟩
  | .hbm, ⟨39, _⟩ => ⟨S16384x2, .f32⟩
  | .hbm, ⟨40, _⟩ => ⟨S16384x2, .f32⟩
  | .hbm, ⟨41, _⟩ => ⟨S16384x2, .f32⟩
  | .hbm, ⟨42, _⟩ => ⟨S16384x2, .f32⟩
  | .hbm, ⟨43, _⟩ => ⟨S16384x2, .f32⟩
  | .hbm, ⟨44, _⟩ => ⟨S_, .i32⟩
  | .hbm, ⟨45, _⟩ => ⟨S64, .i32⟩
  | .hbm, ⟨46, _⟩ => ⟨S64, .i1⟩
  | .hbm, ⟨47, _⟩ => ⟨S_, .i32⟩
  | .hbm, ⟨48, _⟩ => ⟨S64, .i32⟩
  | .hbm, ⟨49, _⟩ => ⟨S64, .i32⟩
  | .hbm, ⟨50, _⟩ => ⟨S64, .i32⟩
  | .hbm, ⟨51, _⟩ => ⟨S64x1, .i32⟩
  | .hbm, ⟨52, _⟩ => ⟨S16384x64, .f32⟩
  | .hbm, ⟨53, _⟩ => ⟨S_, .i32⟩
  | .hbm, ⟨54, _⟩ => ⟨S64, .i32⟩
  | .hbm, ⟨55, _⟩ => ⟨S64, .i1⟩
  | .hbm, ⟨56, _⟩ => ⟨S_, .i32⟩
  | .hbm, ⟨57, _⟩ => ⟨S64, .i32⟩
  | .hbm, ⟨58, _⟩ => ⟨S64, .i32⟩
  | .hbm, ⟨59, _⟩ => ⟨S64, .i32⟩
  | .hbm, ⟨60, _⟩ => ⟨S64x1, .i32⟩
  | .hbm, ⟨61, _⟩ => ⟨S16384x64, .f32⟩
  | .hbm, ⟨62, _⟩ => ⟨S16384x64, .f32⟩
  | .hbm, ⟨63, _⟩ => ⟨S_, .f32⟩
  | .hbm, ⟨64, _⟩ => ⟨S64x63, .f32⟩
  | .hbm, ⟨65, _⟩ => ⟨S64x63, .i1⟩
  | .hbm, ⟨66, _⟩ => ⟨S64x63, .f32⟩
  | .hbm, ⟨67, _⟩ => ⟨S16384x1x63, .f32⟩
  | .hbm, ⟨68, _⟩ => ⟨S1x64x63, .f32⟩
  | .hbm, ⟨69, _⟩ => ⟨S16384x64x63, .f32⟩
  | .hbm, ⟨70, _⟩ => ⟨S16384x64x63, .f32⟩
  | .hbm, ⟨71, _⟩ => ⟨S16384x64x63, .f32⟩
  | .hbm, ⟨72, _⟩ => ⟨S16384x64x63, .f32⟩
  | .hbm, ⟨73, _⟩ => ⟨S1x64x63, .f32⟩
  | .hbm, ⟨74, _⟩ => ⟨S16384x64x63, .f32⟩
  | .hbm, ⟨75, _⟩ => ⟨S16384x64x63, .f32⟩
  | .hbm, ⟨76, _⟩ => ⟨S_, .f32⟩
  | .hbm, ⟨77, _⟩ => ⟨S16384x64, .f32⟩
  | .hbm, ⟨78, _⟩ => ⟨S_, .f32⟩
  | .hbm, ⟨79, _⟩ => ⟨S16384x64, .f32⟩
  | .hbm, ⟨80, _⟩ => ⟨S16384x64, .f32⟩
  | .hbm, ⟨81, _⟩ => ⟨S_, .f32⟩
  | .hbm, ⟨82, _⟩ => ⟨S16384x64, .f32⟩
  | .hbm, ⟨83, _⟩ => ⟨S16384x64, .f32⟩
  | .hbm, ⟨84, _⟩ => ⟨S16384x64, .f32⟩
  | .hbm, ⟨85, _⟩ => ⟨S16x1024x64, .f32⟩
  | _, _ => ⟨S16x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_c_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_13 : Ref sig .tc := ⟨.hbm, 76, rfl⟩
abbrev main_v57 : Ref sig .tc := ⟨.hbm, 77, rfl⟩
abbrev main_cst_14 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]

class Facts₀ : Prop where
  shapeCasts_S16x1024x2_S16384x2 : S16x1024x2.ShapeCasts S16384x2
  bcast_S_S16384x2 : S_.BroadcastsInDim S16384x2 (![] : Fin 0 → Fin S16384x2.rank)
  shapeCasts_S16x1024x63_S16384x63 : S16x1024x63.ShapeCasts S16384x63
  bcast_S_S64 : S_.BroadcastsInDim S64 (![] : Fin 0 → Fin S64.rank)
  bcast_S64_S64x1_0 : S64.BroadcastsInDim S64x1 (![0] : Fin 1 → Fin S64x1.rank)
  bcast_S_S64x63 : S_.BroadcastsInDim S64x63 (![] : Fin 0 → Fin S64x63.rank)
  bcast_S16384x63_S16384x1x63_0_2 : S16384x63.BroadcastsInDim S16384x1x63 (![0, 2] : Fin 2 → Fin S16384x1x63.rank)
  bcast_S64x63_S1x64x63_1_2 : S64x63.BroadcastsInDim S1x64x63 (![1, 2] : Fin 2 → Fin S1x64x63.rank)
  bcast_S16384x1x63_S16384x64x63_0_1_2 : S16384x1x63.BroadcastsInDim S16384x64x63 (![0, 1, 2] : Fin 3 → Fin S16384x64x63.rank)
  bcast_S1x64x63_S16384x64x63_0_1_2 : S1x64x63.BroadcastsInDim S16384x64x63 (![0, 1, 2] : Fin 3 → Fin S16384x64x63.rank)
  reducesTo_S16384x64x63_S16384x64_d2 : S16384x64x63.ReducesTo [2] S16384x64
  h_S_ : 0 < S_.numel
  bcast_S_S16384x64 : S_.BroadcastsInDim S16384x64 (![] : Fin 0 → Fin S16384x64.rank)
  shapeCasts_S16384x64_S16x1024x64 : S16384x64.ShapeCasts S16x1024x64
  gather_S16384x2_S64x1_S16384x64_0_1_n_n_1_1_163841_wf : GatherDims.WF S16384x2 S64x1 S16384x64 [0] [1] [] [1] [] 1 ![16384, 1]

variable [Facts₀]

def gather_S16384x2_S64x1_S16384x64_0_1_n_n_1_1_163841 : GatherDims S16384x2 S64x1 S16384x64 where
  offsetDims := [0]
  collapsedSliceDims := [1]
  operandBatchingDims := []
  startIndicesBatchingDims := []
  startIndexMap := [1]
  indexVectorDim := 1
  sliceSizes := ![16384, 1]
  wf := gather_S16384x2_S64x1_S16384x64_0_1_n_n_1_1_163841_wf

class Facts : Prop extends Facts₀ where

variable [Facts]
-- ==== Proof.CostSpec.lean ====
/-
  The matching cost both programs compute, entry by entry, over the extended reals.

  For query row `r` (of 16384) and target `t` (of 64) the cost is
  `1 · (0 + ∑ₖ |K r k − T t k| · vis (T t k)) + 1 · focal`, the masked L1 distance over the 63 keypoint coordinates
  (`vis x` is `1` where `x > 0` and `0` elsewhere) plus a focal classification term of the sigmoid `p` of the
  logit of the target's class: `¼ (1 − p)² (−log (p + ε)) − ¾ p² (−log (1 − p + ε))`.
  The kernel spells the squares as products, `−log` as `0 − log`, picks the class by a one-hot row
  (`0 + h₀ · f₀ + h₁ · f₁`) and reads the mask through a signed conversion; the reference spells the squares as
  powers with exponent `2`, negates, picks the class by a clamped column gather and reads the mask through an
  unsigned conversion. On real logits and one-hot rows that agree with the gathered column the two are one function
  (`GK_eq_GR`): `x ^ 2 = x · x` on the reals, `0 − y = −y`, `1 · y = y`, `0 · y = 0`.
  The float words `1.0`, `2.0`, `0.0` are read here, once; `0.25`, `0.75` and `1e-8` are the same words on both
  sides and are never read.
-/
import Idealize.ShloMosaic.PureOps.Ideal
import Idealize.ShloMosaic.PureOps.Ideal.Laws
import Idealize.ShloMosaic.Lib.ValueIdx

noncomputable section

namespace Cert.CostSpec

open Idealize.ShloMosaic Idealize.ShloMosaic.ValueIdx

abbrev SQx2 : Shape := ⟨2, ![16384, 2]⟩
abbrev SQx63 : Shape := ⟨2, ![16384, 63]⟩
abbrev STx63 : Shape := ⟨2, ![64, 63]⟩
abbrev STx2 : Shape := ⟨2, ![64, 2]⟩
abbrev STx1 : Shape := ⟨2, ![64, 1]⟩
abbrev SQxT : Shape := ⟨2, ![16384, 64]⟩

/-! ## The float words -/

abbrev c0 : EReal := Ideal.ofBits .f32 0x00000000#32
abbrev c1 : EReal := Ideal.ofBits .f32 0x3F800000#32
abbrev c2 : EReal := Ideal.ofBits .f32 0x40000000#32
abbrev cA : EReal := Ideal.ofBits .f32 0x3E800000#32
abbrev cB : EReal := Ideal.ofBits .f32 0x3F400000#32
abbrev cE : EReal := Ideal.ofBits .f32 0x322BCC77#32

/-- The word `0.0` denotes `0`. -/
theorem c0_eq : c0 = 0 := Ideal.ofBits_zero_f32

/-- The word `1.0` denotes `1`. -/
theorem c1_eq : c1 = 1 := by
  simp [Ideal.ofBits, Ideal.ieee, -EReal.coe_mul]; norm_num

/-- The word `2.0` denotes the real `2`. -/
theorem c2_eq : c2 = ((2 : ℝ) : EReal) := by
  simp [Ideal.ofBits, Ideal.ieee, -EReal.coe_mul]; norm_num

/-! ## The focal term -/

/-- The focal difference as the kernel spells it, of a probability `p`. -/
def focalK (p : EReal) : EReal :=
  (cA * ((c1 - p) * (c1 - p))) * (c0 - Ideal.log (p + cE)) - (cB * (p * p)) * (c0 - Ideal.log ((c1 - p) + cE))

/-- The positive part as the reference spells it. -/
def focalPos (p : EReal) : EReal := (cA * Ideal.pow (c1 - p) c2) * (-(Ideal.log (p + cE)))

/-- The negative part as the reference spells it. -/
def focalNeg (p : EReal) : EReal := (cB * Ideal.pow p c2) * (-(Ideal.log ((c1 - p) + cE)))

/-- The sigmoid as the reference spells it: `1 / (1 + e^(−x))`. -/
def sigHost (x : EReal) : EReal := Ideal.div c1 (c1 + Ideal.exp (-x))

/-- On a real logit the reference's quotient is the real `(1 + e^(−x))⁻¹`. -/
theorem sigHost_coe (x : ℝ) : sigHost (x : EReal) = (((1 + Real.exp (-x))⁻¹ : ℝ) : EReal) := by
  have hpos : (1 + Real.exp (-x)) ≠ 0 := by have := Real.exp_pos (-x); linarith
  unfold sigHost
  rw [c1_eq, ← EReal.coe_neg, Ideal.exp_coe, ← EReal.coe_one, ← EReal.coe_add, Ideal.div_coe hpos, ← EReal.coe_mul]
  congr 1
  rw [one_mul, one_div]

/-- The square of a real as a power with exponent `2`. -/
theorem pow_two_coe (r : ℝ) : Ideal.pow (r : EReal) c2 = (r : EReal) * (r : EReal) := by
  rw [c2_eq, Ideal.pow_coe_coe, ← EReal.coe_mul]
  congr 1
  show r ^ (2 : ℝ) = r * r
  rw [Real.rpow_two, sq]

/-- On a real logit the kernel's focal difference of the sigmoid is the reference's positive part less its negative
    part. -/
theorem focal_bridge (x : ℝ) :
    focalK (Ideal.logistic (x : EReal)) = focalPos (sigHost (x : EReal)) - focalNeg (sigHost (x : EReal)) := by
  rw [sigHost_coe, Ideal.logistic_coe]
  generalize (1 + Real.exp (-x))⁻¹ = p
  have h1 : c1 - (p : EReal) = ((1 - p : ℝ) : EReal) := by rw [c1_eq, ← EReal.coe_one, ← EReal.coe_sub]
  unfold focalK focalPos focalNeg
  rw [h1, pow_two_coe, pow_two_coe, c0_eq, zero_sub, zero_sub]

/-! ## The visibility mask -/

/-- The mask as the kernel reads it: the comparison's bit widened to 32 bits and read as a signed integer. -/
def maskK (x : EReal) : EReal := ((((Ideal.cmp .ogt x c0).setWidth 32).toInt : ℝ) : EReal)

/-- The mask as the reference reads it: the comparison's bit read as an unsigned integer. -/
def maskR (x : EReal) : EReal := (((Ideal.cmp .ogt x c0).toNat : ℝ) : EReal)

theorem maskK_eq (x : EReal) : maskK x = maskR x := by
  unfold maskK maskR
  have h : ∀ b : BitVec 1, (b.setWidth 32).toInt = (b.toNat : ℤ) := by decide
  rw [h]
  norm_cast

/-! ## The cost matrix, both spellings -/

/-- One keypoint coordinate's share of the masked L1 distance. -/
def kpTerm (K2 : FVec Ideal SQx63 .f32) (T : FVec Ideal STx63 .f32) (mk : EReal → EReal) (r : Fin 16384) (t : Fin 64)
    (k : Fin 63) : EReal :=
  max (K2 (ix2 r k) - T (ix2 t k)) (-(K2 (ix2 r k) - T (ix2 t k))) * mk (T (ix2 t k))

/-- The kernel's spelling, of the flattened keypoints `K2`, the flattened logits `L2`, the targets `T` and the
    one-hot rows `OH`. -/
def GK (K2 : FVec Ideal SQx63 .f32) (L2 : FVec Ideal SQx2 .f32) (T : FVec Ideal STx63 .f32) (OH : FVec Ideal STx2 .f32) :
    FVec Ideal SQxT .f32 := fun i =>
  c1 * (c0 + ∑ k : Fin 63, kpTerm K2 T maskK (i 0) (i 1) k)
    + c1 * ((c0 + OH (ix2 (i 1) (0 : Fin 2)) * focalK (Ideal.logistic (L2 (ix2 (i 0) (0 : Fin 2)))))
        + OH (ix2 (i 1) (1 : Fin 2)) * focalK (Ideal.logistic (L2 (ix2 (i 0) (1 : Fin 2)))))

/-- A start index read signed and clamped into the two columns. -/
def clampCol (b : BitVec 32) : Fin 2 := ⟨min b.toInt.toNat 1, by omega⟩

theorem clampCol_zero : clampCol 0#32 = 0 := by decide
theorem clampCol_one : clampCol 1#32 = 1 := by decide

/-- The reference's spelling, of the flattened logits and keypoints, the targets and the normalized start indices
    `J` of the class gather. -/
def GR (L2 : FVec Ideal SQx2 .f32) (K2 : FVec Ideal SQx63 .f32) (T : FVec Ideal STx63 .f32) (J : IVec STx1 32) :
    FVec Ideal SQxT .f32 := fun i =>
  c1 * (c0 + ∑ k : Fin 63, kpTerm K2 T maskR (i 0) (i 1) k)
    + c1 * (focalPos (sigHost (L2 (ix2 (i 0) (clampCol (J (ix2 (i 1) (0 : Fin 1)))))))
        - focalNeg (sigHost (L2 (ix2 (i 0) (clampCol (J (ix2 (i 1) (0 : Fin 1))))))))

/-- ONE FUNCTION: on real logits, where each target's one-hot row marks the column its start index names, the
    kernel's spelling is the reference's. -/
theorem GK_eq_GR (K2 : FVec Ideal SQx63 .f32) (L2 : FVec Ideal SQx2 .f32) (T : FVec Ideal STx63 .f32)
    (OH : FVec Ideal STx2 .f32) (J : IVec STx1 32) (hL : ∀ i, ∃ r : ℝ, L2 i = (r : EReal))
    (hsel : ∀ t : Fin 64,
      (J (ix2 t (0 : Fin 1)) = 0#32 ∧ OH (ix2 t (0 : Fin 2)) = 1 ∧ OH (ix2 t (1 : Fin 2)) = 0)
      ∨ (J (ix2 t (0 : Fin 1)) = 1#32 ∧ OH (ix2 t (0 : Fin 2)) = 0 ∧ OH (ix2 t (1 : Fin 2)) = 1)) :
    GK K2 L2 T OH = GR L2 K2 T J := by
  funext i
  have hm : kpTerm K2 T maskK (i 0) (i 1) = kpTerm K2 T maskR (i 0) (i 1) := by
    funext k; unfold kpTerm; rw [maskK_eq]
  unfold GK GR
  rw [hm]
  congr 2
  rcases hsel (i 1) with ⟨hJ, h0, h1⟩ | ⟨hJ, h0, h1⟩
  · obtain ⟨r, hr⟩ := hL (ix2 (i 0) (0 : Fin 2))
    rw [hJ, h0, h1, clampCol_zero, hr, focal_bridge, c0_eq, one_mul, zero_mul, zero_add, add_zero]
  · obtain ⟨r, hr⟩ := hL (ix2 (i 0) (1 : Fin 2))
    rw [hJ, h0, h1, clampCol_one, hr, focal_bridge, c0_eq, one_mul, zero_mul, zero_add, zero_add]

end Cert.CostSpec

end
-- ==== Proof.PreFacts.lean ====
/-
  The precondition read back. The predicate is the conjunction of four tests, each an "all" over one argument:
  |x| < +∞ at every entry of the three float arrays, and 0 ≤ w < 2 (signed) at every entry of the table of 64 words.
  Where the predicate holds, each conjunct is 1; an "all" that is 1 had a 1 at every entry; and at one entry the test
  says what it says: an extended real whose absolute value lies below +∞ is neither infinity, so it is a real number,
  and a 32-bit word that is at least 0 and below 2 as a signed number is the word 0 or the word 1.
-/
import proofs.«409327_j90804198572657_3_alg».proof.Proof.Gen.Pre_finite_inputs
import Idealize.ShloMosaic.PureOps.Ideal
import Idealize.ShloMosaic.Lib.ValueIdx
import Idealize.ShloMosaic.Lib.ReduceAll
import Idealize.ShloMosaic.Lib.Affine
namespace Cert.PreFacts
open Idealize.ShloMosaic Idealize.ShloMosaic.ValueIdx Cert.Pre_finite_inputs

/-- The scalar shape has one index. -/
instance : Subsingleton S_.Idx := ⟨fun a b => funext fun d => d.elim0⟩

/-- The f32 pattern with an all-ones exponent, a clear sign and a zero fraction denotes +∞. -/
theorem ofBits_inf : Ideal.ofBits .f32 0x7F800000#32 = (⊤ : EReal) := by
  simp [Ideal.ofBits, Ideal.ieee]

/-- An extended real whose absolute value, max x (-x), lies strictly below +∞ is a real number:
    at +∞ the maximum is +∞ itself, and at -∞ its negation is. -/
theorem real_of_abs_lt_inf (x : EReal)
    (hx : Ideal.cmp .olt (max x (-x)) (Ideal.ofBits .f32 0x7F800000#32) = 1#1) : ∃ r : ℝ, x = (r : EReal) := by
  rw [ofBits_inf] at hx
  induction x using EReal.rec with
  | bot => simp [Ideal.cmp] at hx
  | coe r => exact ⟨r, rfl⟩
  | top => simp [Ideal.cmp] at hx

/-- A 32-bit word that is at least 0 and below 2, read signed, is the word 0 or the word 1. -/
theorem word_zero_or_one (b : BitVec 32) (h0 : (0#32 : BitVec 32).toInt ≤ b.toInt) (h2 : b.toInt < (2#32 : BitVec 32).toInt) :
    b = 0#32 ∨ b = 1#32 := by
  have e0 : (0#32 : BitVec 32).toInt = 0 := by decide
  have e2 : (2#32 : BitVec 32).toInt = 2 := by decide
  rw [e0] at h0
  rw [e2] at h2
  have hc : b.toInt = 0 ∨ b.toInt = 1 := by omega
  rcases hc with hc | hc
  · exact Or.inl (BitVec.eq_of_toInt_eq (by rw [hc]; decide))
  · exact Or.inr (BitVec.eq_of_toInt_eq (by rw [hc]; decide))

theorem logits_real (a0 : FVec Ideal S16x1024x2 .f32) (a1 : FVec Ideal S16x1024x63 .f32) (a2 : FVec Ideal S64x63 .f32) (a3 : IVec S64 32)
    (h : Cert.Pre_finite_inputs.fn (F := Ideal) a0 a1 a2 a3 = fun _ => 1#1) (i : S16x1024x2.Idx) : ∃ r : ℝ, a0 i = (r : EReal) := by
  have e := congrFun h ValueIdx.ix0
  dsimp only [Cert.Pre_finite_inputs.fn, Cert.Pre_finite_inputs.fn_part1] at e
  -- the outer three conjunctions: keep the left operand each time, down to the first array's "all"
  obtain ⟨e123, -⟩ := IntOp.andi_eq_one.1 e
  obtain ⟨e12, -⟩ := IntOp.andi_eq_one.1 e123
  obtain ⟨e1, -⟩ := IntOp.andi_eq_one.1 e12
  -- the "all" is 1, so the test at entry i is 1
  have hi := Host.reduce_andi_all _ _ _ _ ix0 e1 i
  exact real_of_abs_lt_inf (a0 i) hi

theorem ids_range (a0 : FVec Ideal S16x1024x2 .f32) (a1 : FVec Ideal S16x1024x63 .f32) (a2 : FVec Ideal S64x63 .f32) (a3 : IVec S64 32)
    (h : Cert.Pre_finite_inputs.fn (F := Ideal) a0 a1 a2 a3 = fun _ => 1#1) (t : Fin 64) : a3 (ix1 t) = 0#32 ∨ a3 (ix1 t) = 1#32 := by
  have e := congrFun h ValueIdx.ix0
  dsimp only [Cert.Pre_finite_inputs.fn, Cert.Pre_finite_inputs.fn_part1] at e
  -- the last conjunct is the table's "all"
  obtain ⟨-, e4⟩ := IntOp.andi_eq_one.1 e
  -- at entry t both comparisons are 1
  have ht := Host.reduce_andi_all _ _ _ _ ix0 e4 (ix1 t)
  obtain ⟨hge, hlt⟩ := IntOp.andi_eq_one.1 ht
  -- each comparison is against a broadcast constant, whose entry at t is the constant
  have hge' : IntOp.cmpi .sge (a3 (ix1 t)) (0#32) = 1#1 := hge
  have hlt' : IntOp.cmpi .slt (a3 (ix1 t)) (2#32) = 1#1 := hlt
  exact word_zero_or_one _ (IntOp.cmpi_sge.1 hge') (IntOp.cmpi_slt.1 hlt')

end Cert.PreFacts
-- ==== Proof.OneHot.lean ====
/-
  The one-hot rows the kernel's host code makes of the class ids, read at an entry: row `t`, column `c` is `1` where the
  id of target `t` is `c` and `0` elsewhere (the ids laid out as a column and broadcast over the two classes, compared with
  the class numbers `0, 1` broadcast over the targets, the comparison's bit read as an unsigned integer).
-/
import proofs.«409327_j90804198572657_3_alg».proof.Proof.Gen.KernelIdeal
import Idealize.ShloMosaic.PureOps.Ideal
import Idealize.ShloMosaic.Lib.ValueIdx
import Idealize.ShloMosaic.Lib.Pipeline.Value

noncomputable section

namespace Cert.OneHot

open Idealize.ShloMosaic Idealize.ShloMosaic.ValueIdx Cert.KernelIdeal Cert.KernelIdeal.Gen

/-- The one-hot rows of the ids. -/
def oneHot (ids : IVec S64 32) : FVec Ideal S64x2 .f32 :=
  uitofp (F := Ideal) .f32
    (cmpi .eq (broadcastInDim S64x2 ![0, 1] Facts₀.bcast_S64x1_S64x2_0_1 (broadcastInDim S64x1 ![0] Facts₀.bcast_S64_S64x1_0 ids))
      (broadcastInDim S64x2 ![0, 1] Facts₀.bcast_S1x2_S64x2_0_1 (iotaInDim S1x2 32 1)))

/-- Entry `(t, c)`: the comparison of target `t`'s id with the class number `c`, read unsigned. -/
theorem oneHot_apply (ids : IVec S64 32) (t : Fin 64) (c : Fin 2) :
    oneHot ids (ix2 t c) = (((IntOp.cmpi .eq (ids (ix1 t)) (BitVec.ofNat 32 c.val)).toNat : ℝ) : EReal) := by
  have e1 : broadcastInDim S64x2 ![0, 1] Facts₀.bcast_S64x1_S64x2_0_1 (broadcastInDim S64x1 ![0] Facts₀.bcast_S64_S64x1_0 ids) (ix2 t c)
      = ids (ix1 t) := by
    rw [broadcastInDim_apply _ _ _ _ (ix2 t (0 : Fin 1)) (fun a => by match a with | ⟨0, _⟩ => rfl | ⟨1, _⟩ => rfl),
      broadcastInDim_apply _ _ _ _ (ix1 t) (fun a => by match a with | ⟨0, _⟩ => rfl)]
  have e2 : broadcastInDim S64x2 ![0, 1] Facts₀.bcast_S1x2_S64x2_0_1 (iotaInDim S1x2 32 1) (ix2 t c) = BitVec.ofNat 32 c.val := by
    rw [broadcastInDim_apply _ _ _ _ (ix2 (0 : Fin 1) c) (fun a => by match a with | ⟨0, _⟩ => rfl | ⟨1, _⟩ => rfl)]
    rfl
  show (((IntOp.cmpi .eq (broadcastInDim S64x2 ![0, 1] _ (broadcastInDim S64x1 ![0] _ ids) (ix2 t c))
      (broadcastInDim S64x2 ![0, 1] _ (iotaInDim S1x2 32 1) (ix2 t c))).toNat : ℝ) : EReal) = _
  rw [e1, e2]

/-- The row of an id that is the word `0`: `(1, 0)`. -/
theorem oneHot_zero (ids : IVec S64 32) (t : Fin 64) (h : ids (ix1 t) = 0#32) :
    oneHot ids (ix2 t (0 : Fin 2)) = 1 ∧ oneHot ids (ix2 t (1 : Fin 2)) = 0 := by
  rw [oneHot_apply, oneHot_apply, h]
  have a0 : (IntOp.cmpi .eq (0#32) (BitVec.ofNat 32 (0 : Fin 2).val)).toNat = 1 := by decide
  have a1 : (IntOp.cmpi .eq (0#32) (BitVec.ofNat 32 (1 : Fin 2).val)).toNat = 0 := by decide
  rw [a0, a1]
  constructor <;> norm_num

/-- The row of an id that is the word `1`: `(0, 1)`. -/
theorem oneHot_one (ids : IVec S64 32) (t : Fin 64) (h : ids (ix1 t) = 1#32) :
    oneHot ids (ix2 t (0 : Fin 2)) = 0 ∧ oneHot ids (ix2 t (1 : Fin 2)) = 1 := by
  rw [oneHot_apply, oneHot_apply, h]
  have a0 : (IntOp.cmpi .eq (1#32) (BitVec.ofNat 32 (0 : Fin 2).val)).toNat = 0 := by decide
  have a1 : (IntOp.cmpi .eq (1#32) (BitVec.ofNat 32 (1 : Fin 2).val)).toNat = 1 := by decide
  rw [a0, a1]
  constructor <;> norm_num

end Cert.OneHot

end
-- ==== Proof.StartIdx.lean ====
/-
  The class a target's id names. The reference wraps a negative id by the number of classes and lays the ids out as a
  `[64, 1]` column of start indices for its two column gathers; on an id that is the word `0` or `1` the start index
  is the id itself.
-/
import proofs.«409327_j90804198572657_3_alg».proof.Proof.Gen.ReferenceIdeal.Read
import Idealize.ShloMosaic.Lib.ValueIdx

namespace Cert.StartIdx

open Cert.ReferenceIdeal Cert.ReferenceIdeal.Gen Cert.ReferenceIdeal.Read
open Idealize.ShloMosaic Idealize.ShloMosaic.ValueIdx

/-- On a class id that is the word `0` or `1` the start index of target `t` is its id. -/
theorem start_of_range (x3 : (⟨S64, .i32⟩ : BufTy).Contents (Elt Ideal)) (t : Fin 64)
    (h : x3 (ix1 t) = 0#32 ∨ x3 (ix1 t) = 1#32) :
    val_main_v35 (F := Ideal) x3 (ix2 t (0 : Fin 1)) = x3 (ix1 t) := by
  have hi : idx_main_v35 (ix2 t (0 : Fin 1)) = ix1 t := by
    funext a
    match a with
    | ⟨0, _⟩ => rfl
  rw [val_main_v35_apply, hi, val_main_v34_apply, val_main_v31_apply, val_main_v33_apply, val_main_v30_apply,
    val_main_v32_apply, val_main_c_apply, val_main_c_9_apply]
  rcases h with h | h <;> rw [h] <;> rfl

end Cert.StartIdx
-- ==== Proof.LibGatherCols.lean ====
import Idealize.ShloMosaic.Lib.ValueIdx

/-!
# Gathering columns of a rank-2 array

What `x[:, idx]` of an array `x : [Q, C]` at an integer array `idx : [T]` lowers to: a gather with offset_dims
`[0]`, collapsed_slice_dims `[1]`, start_index_map `[1]`, slice_sizes `[Q, 1]` and index_vector_dim 1 over the
indices as `[T, 1]`. Result element `(r, t)` is `x` at row `r` and at the column given by the start index
`idx[t, 0]`, read as a signed integer and clamped into `[0, C − 1]` (a gather clamps every start index).
-/

namespace Cert.LibGatherCols
open Idealize.ShloMosaic Idealize.ShloMosaic.ValueIdx
variable {α : Type}

/-- Those dimension numbers for an operand `[Q, C]`, start indices `[T, 1]` and result `[Q, T]`: axis 0 of the
    operand is kept whole (an offset axis of the result), axis 1 is collapsed and indexed. Their conditions `wf` are
    decided on a program's literal shapes. -/
abbrev colDims (Q C T : Nat) (wf : GatherDims.WF ⟨2, ![Q, C]⟩ ⟨2, ![T, 1]⟩ ⟨2, ![Q, T]⟩ [0] [1] [] [1] [] 1 ![Q, 1]) :
    GatherDims ⟨2, ![Q, C]⟩ ⟨2, ![T, 1]⟩ ⟨2, ![Q, T]⟩ where
  offsetDims := [0]
  collapsedSliceDims := [1]
  operandBatchingDims := []
  startIndicesBatchingDims := []
  startIndexMap := [1]
  indexVectorDim := 1
  sliceSizes := ![Q, 1]
  wf := wf

/-- THE GATHER READ AT `(r, t)`: the operand at row `r` and at the column `idx[t, 0]`, read signed and clamped into
    `[0, C − 1]`. -/
theorem gather_cols_apply {Q C T w : Nat} (hC : 0 < C)
    (wf : GatherDims.WF ⟨2, ![Q, C]⟩ ⟨2, ![T, 1]⟩ ⟨2, ![Q, T]⟩ [0] [1] [] [1] [] 1 ![Q, 1])
    (x : (⟨2, ![Q, C]⟩ : Shape).Idx → α) (idx : IVec ⟨2, ![T, 1]⟩ w) (r : Fin Q) (t : Fin T) :
    Host.gather (colDims Q C T wf) x idx (ix2 r t)
      = x (ix2 r ⟨min (idx (ix2 t (0 : Fin 1))).toInt.toNat (C - 1), by omega⟩) := by
  unfold Host.gather
  congr 1
  funext a
  refine Fin.ext ?_
  match a with
  | ⟨0, _⟩ =>
    -- axis 0 is an offset axis: no start index, no batching; the offset coordinate is the result's coordinate 0
    show (colDims Q C T wf).start (ix2 r t) idx 0 + (colDims Q C T wf).batchCoord (ix2 r t) 0
      + (colDims Q C T wf).offCoord (ix2 r t) 0 = r.val
    have h01 : (0 : Fin 2) ≠ 1 := by decide
    rw [GatherDims.batchCoord_eq_zero _ _ _ List.not_mem_nil]
    unfold GatherDims.start
    rw [dif_neg (show (0 : Fin 2) ∉ (colDims Q C T wf).startIndexMap from fun h => h01 (List.mem_singleton.mp h))]
    unfold GatherDims.offCoord
    rw [dif_pos (show (0 : Fin 2) ∈ (colDims Q C T wf).sKept from
      (GatherDims.mem_sKept _ _).mpr ⟨fun h => h01 (List.mem_singleton.mp h), List.not_mem_nil⟩)]
    simp only [Nat.zero_add, Nat.add_zero]
    rfl
  | ⟨1, _⟩ =>
    -- axis 1 is collapsed and indexed: offset coordinate 0, no batching; the start is the clamped start index
    show (colDims Q C T wf).start (ix2 r t) idx 1 + (colDims Q C T wf).batchCoord (ix2 r t) 1
      + (colDims Q C T wf).offCoord (ix2 r t) 1 = min (idx (ix2 t (0 : Fin 1))).toInt.toNat (C - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims Q C T wf).startIndexMap from List.mem_singleton.mpr rfl)]
    have hsi : (colDims Q C T wf).siIdx (ix2 r t) ⟨List.idxOf (1 : Fin 2) (colDims Q C T wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl

end Cert.LibGatherCols
-- ==== Proof.RefRead.lean ====
/-
  The reference's run, read index by index.

  The reference flattens the logits to [16384, 2] and the keypoints to [16384, 63], and its last operation reshapes a
  [16384, 64] matrix back to [16, 1024, 64]. Entry (r, t) of that matrix is
  1 · (0 + ∑ₖ |K r k − T t k| · vis (T t k)) + 1 · (pos − neg), where pos and neg are the two focal parts of the sigmoid
  of the logit of row r in the column the target's start index names, each gathered from a [16384, 2] array computed
  entry by entry. Read one operation at a time this is the spec function of the cost, in the reference's spelling.
-/
import proofs.«409327_j90804198572657_3_alg».proof.Proof.Gen.ReferenceIdeal.Read
import proofs.«409327_j90804198572657_3_alg».proof.Proof.CostSpec
import proofs.«409327_j90804198572657_3_alg».proof.Proof.LibGatherCols
import Idealize.ShloMosaic.PureOps.Ideal
import Idealize.ShloMosaic.Lib.ValueIdx

noncomputable section

namespace Cert.RefRead

open Cert.ReferenceIdeal Cert.ReferenceIdeal.Gen Cert.ReferenceIdeal.Read Cert.CostSpec
open Idealize.ShloMosaic Idealize.ShloMosaic.ValueIdx

/-! ## The focal parts, entry by entry of the [16384, 2] arrays -/

/-- The quotient 1 / (1 + e^(−x)) at an entry is the sigmoid of the flattened logit there. -/
theorem sig_at (x0 : (⟨S16x1024x2, .f32⟩ : BufTy).Contents (Elt Ideal)) (c : S16384x2.Idx) :
    val_main_v6 (F := Ideal) x0 c = sigHost (val_main_v0 (F := Ideal) x0 c) := rfl

/-- The array the first gather reads is the positive focal part of the sigmoid. -/
theorem pos_at (x0 : (⟨S16x1024x2, .f32⟩ : BufTy).Contents (Elt Ideal)) (c : S16384x2.Idx) :
    val_main_v29 (F := Ideal) x0 c = focalPos (sigHost (val_main_v0 (F := Ideal) x0 c)) := rfl

/-- The array the second gather reads is the negative focal part of the sigmoid. -/
theorem neg_at (x0 : (⟨S16x1024x2, .f32⟩ : BufTy).Contents (Elt Ideal)) (c : S16384x2.Idx) :
    val_main_v18 (F := Ideal) x0 c = focalNeg (sigHost (val_main_v0 (F := Ideal) x0 c)) := rfl

/-! ## The two gathers -/

/-- Both gathers take the same start indices: the second table of normalized indices is the first. -/
theorem starts_eq (x3 : (⟨S64, .i32⟩ : BufTy).Contents (Elt Ideal)) :
    val_main_v42 (F := Ideal) x3 = val_main_v35 (F := Ideal) x3 := rfl

/-- The first gather at (r, t): the positive part at row r, in the column the start index of t names. -/
theorem gather_pos (x0 : (⟨S16x1024x2, .f32⟩ : BufTy).Contents (Elt Ideal)) (x3 : (⟨S64, .i32⟩ : BufTy).Contents (Elt Ideal))
    (r : Fin 16384) (t : Fin 64) :
    val_main_v36 (F := Ideal) x0 x3 (ix2 r t)
      = val_main_v29 (F := Ideal) x0 (ix2 r (clampCol (val_main_v35 (F := Ideal) x3 (ix2 t (0 : Fin 1))))) := by
  unfold val_main_v36
  exact Cert.LibGatherCols.gather_cols_apply (Q := 16384) (C := 2) (T := 64) (by decide) _ _ _ r t

/-- The second gather at (r, t): the negative part at the same place. -/
theorem gather_neg (x0 : (⟨S16x1024x2, .f32⟩ : BufTy).Contents (Elt Ideal)) (x3 : (⟨S64, .i32⟩ : BufTy).Contents (Elt Ideal))
    (r : Fin 16384) (t : Fin 64) :
    val_main_v43 (F := Ideal) x0 x3 (ix2 r t)
      = val_main_v18 (F := Ideal) x0 (ix2 r (clampCol (val_main_v35 (F := Ideal) x3 (ix2 t (0 : Fin 1))))) := by
  unfold val_main_v43
  rw [starts_eq]
  exact Cert.LibGatherCols.gather_cols_apply (Q := 16384) (C := 2) (T := 64) (by decide) _ _ _ r t

/-! ## One keypoint coordinate's term -/

/-- Through the two broadcasts, entry (r, t, k) of the keypoints' side is the flattened keypoints at (r, k). -/
theorem idx_kp (r : Fin 16384) (t : Fin 64) (k : Fin 63) :
    idx_main_v48 (idx_main_v50 (idx_main_v57 (ix2 r t) k)) = ix2 r k :=
  funext fun a => Fin.ext (by match a with | ⟨0, _⟩ => rfl | ⟨1, _⟩ => rfl)

/-- Through the two broadcasts, entry (r, t, k) of the targets' side is the targets at (t, k). -/
theorem idx_tg (r : Fin 16384) (t : Fin 64) (k : Fin 63) :
    idx_main_v49 (idx_main_v51 (idx_main_v57 (ix2 r t) k)) = ix2 t k :=
  funext fun a => Fin.ext (by match a with | ⟨0, _⟩ => rfl | ⟨1, _⟩ => rfl)

/-- The same for the mask, which is broadcast as the targets are. -/
theorem idx_mk (r : Fin 16384) (t : Fin 64) (k : Fin 63) :
    idx_main_v54 (idx_main_v55 (idx_main_v57 (ix2 r t) k)) = ix2 t k :=
  funext fun a => Fin.ext (by match a with | ⟨0, _⟩ => rfl | ⟨1, _⟩ => rfl)

/-- The mask at an entry of the targets: the comparison with 0, read unsigned. -/
theorem mask_at (x2 : (⟨S64x63, .f32⟩ : BufTy).Contents (Elt Ideal)) (j : S64x63.Idx) :
    val_main_v47 (F := Ideal) x2 j = maskR (x2 j) := rfl

/-- The summand of the reduction at (r, t), coordinate k: |K r k − T t k| · vis (T t k). -/
theorem term_at (x1 : (⟨S16x1024x63, .f32⟩ : BufTy).Contents (Elt Ideal)) (x2 : (⟨S64x63, .f32⟩ : BufTy).Contents (Elt Ideal))
    (r : Fin 16384) (t : Fin 64) (k : Fin 63) :
    val_main_v56 (F := Ideal) x1 x2 (idx_main_v57 (ix2 r t) k)
      = kpTerm (val_main_v7 (F := Ideal) x1) x2 maskR r t k := by
  rw [val_main_v56_apply, val_main_v53_apply, val_main_v52_apply]
  rw [val_main_v50_apply, val_main_v48_apply, idx_kp]
  rw [val_main_v51_apply, val_main_v49_apply, idx_tg]
  rw [val_main_v55_apply, val_main_v54_apply, idx_mk, mask_at]
  rfl

/-! ## The matrix before the last reshape -/

/-- Entry by entry, the [16384, 64] matrix is the cost in the reference's spelling. -/
theorem v62_eq (x0 : (⟨S16x1024x2, .f32⟩ : BufTy).Contents (Elt Ideal)) (x1 : (⟨S16x1024x63, .f32⟩ : BufTy).Contents (Elt Ideal))
    (x2 : (⟨S64x63, .f32⟩ : BufTy).Contents (Elt Ideal)) (x3 : (⟨S64, .i32⟩ : BufTy).Contents (Elt Ideal)) :
    val_main_v62 (F := Ideal) x0 x1 x2 x3
      = GR (val_main_v0 (F := Ideal) x0) (val_main_v7 (F := Ideal) x1) x2 (val_main_v35 (F := Ideal) x3) := by
  funext i
  obtain ⟨r, t, rfl⟩ : ∃ (r : Fin 16384) (t : Fin 64), i = ix2 r t := ⟨i 0, i 1, eq_ix2 i⟩
  rw [val_main_v62_apply, val_main_v59_apply, val_main_v61_apply, val_main_v44_apply]
  rw [val_main_v57_apply]
  rw [gather_pos, gather_neg, pos_at, neg_at]
  simp only [term_at]
  rfl

/-- THE REFERENCE'S RESULT: the reshape to [16, 1024, 64] of the cost matrix in the reference's spelling, of the flattened
    logits, the flattened keypoints, the targets and the normalized start indices. -/
theorem ref_value (x0 : (⟨S16x1024x2, .f32⟩ : BufTy).Contents (Elt Ideal)) (x1 : (⟨S16x1024x63, .f32⟩ : BufTy).Contents (Elt Ideal))
    (x2 : (⟨S64x63, .f32⟩ : BufTy).Contents (Elt Ideal)) (x3 : (⟨S64, .i32⟩ : BufTy).Contents (Elt Ideal)) :
    val_main_v63 (F := Ideal) x0 x1 x2 x3
      = shapeCast S16x1024x64 (GR (val_main_v0 (F := Ideal) x0) (val_main_v7 (F := Ideal) x1) x2 (val_main_v35 (F := Ideal) x3))
          shapeCasts_S16384x64_S16x1024x64 := by
  unfold val_main_v63
  rw [v62_eq]

end Cert.RefRead

end
-- ==== Proof.LibRowCol.lean ====
/-
  Layout operations of rank-2 vectors read at an index: one column `[a, 1]` broadcast over `b` lanes; a column cut
  out of a matrix and so broadcast; a row cut out of a matrix, flattened to a vector, lifted back to one row and
  broadcast over `a` sublanes. Each is the source matrix at one fixed row or column.
-/
import Idealize.ShloMosaic.Lib.ValueIdx
import Idealize.ShloMosaic.Lib.ValueLayout
import Idealize.ShloMosaic.Lib.Pipeline.Value

namespace Cert.LibRowCol

open Idealize.ShloMosaic Idealize.ShloMosaic.ValueIdx

variable {α : Type}

/-- An `[a, 1]` column broadcast to `[a, b]` reads, at `(p, c)`, the column's entry `p`, whatever the lane `c`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `d` of an `[a, n]` matrix, cut out as `[a, 1]` and broadcast over `b` lanes, reads at `(p, c)` the matrix
    at `(p, d)`. -/
theorem col_bcast_apply {a n b : ℕ} (d : ℕ) (X : (⟨2, ![a, n]⟩ : Shape).Idx → α)
    (hs : (⟨2, ![a, n]⟩ : Shape).Slices ![0, d] ⟨2, ![a, 1]⟩) (hb : (⟨2, ![a, 1]⟩ : Shape).Broadcasts ⟨2, ![a, b]⟩)
    (p : Fin a) (c : Fin b) (k : Fin n) (hk : k.val = d) :
    broadcastTo ⟨2, ![a, b]⟩ (extractStridedSlice ⟨2, ![a, 1]⟩ ![0, d] X hs) hb (ix2 p c) = X (ix2 p k) := by
  rw [broadcastTo_a1_ab_apply, slice2_axis1_apply d X hs p (0 : Fin 1) k (by rw [hk]; rfl)]

/-- Row `d` of an `[n, b]` matrix, cut out as `[1, b]`, flattened to `[b]`, lifted back to `[1, b]` and broadcast
    over `a` sublanes, reads at `(p, c)` the matrix at `(d, c)`. -/
theorem row_bcast_apply {n b a : ℕ} (d : ℕ) (X : (⟨2, ![n, b]⟩ : Shape).Idx → α)
    (hs : (⟨2, ![n, b]⟩ : Shape).Slices ![d, 0] ⟨2, ![1, b]⟩)
    (h1 : (⟨2, ![1, b]⟩ : Shape).ShapeCasts ⟨1, ![b]⟩) (h2 : (⟨1, ![b]⟩ : Shape).ShapeCasts ⟨2, ![1, b]⟩)
    (hb : (⟨2, ![1, b]⟩ : Shape).Broadcasts ⟨2, ![a, b]⟩) (p : Fin a) (c : Fin b) (k : Fin n) (hk : k.val = d) :
    broadcastTo ⟨2, ![a, b]⟩
        (shapeCast ⟨2, ![1, b]⟩ (shapeCast ⟨1, ![b]⟩ (extractStridedSlice ⟨2, ![1, b]⟩ ![d, 0] X hs) h1) h2) hb (ix2 p c)
      = X (ix2 k c) := by
  rw [broadcastTo_1b_ab_apply, shapeCast_a_1a_apply, shapeCast_1a_a_apply,
    slice2_axis0_apply d X hs (0 : Fin 1) c k (by rw [hk]; rfl)]

/-- A row `[1, b]` cut at row `d` out of an `[n, b]` matrix and broadcast over `a` sublanes reads at `(p, c)` the
    matrix at `(d, c)`. -/
theorem row_direct_bcast_apply {n b a : ℕ} (d : ℕ) (X : (⟨2, ![n, b]⟩ : Shape).Idx → α)
    (hs : (⟨2, ![n, b]⟩ : Shape).Slices ![d, 0] ⟨2, ![1, b]⟩)
    (hb : (⟨2, ![1, b]⟩ : Shape).Broadcasts ⟨2, ![a, b]⟩) (p : Fin a) (c : Fin b) (k : Fin n) (hk : k.val = d) :
    broadcastTo ⟨2, ![a, b]⟩ (extractStridedSlice ⟨2, ![1, b]⟩ ![d, 0] X hs) hb (ix2 p c) = X (ix2 k c) := by
  rw [broadcastTo_1b_ab_apply, slice2_axis0_apply d X hs (0 : Fin 1) c k (by rw [hk]; rfl)]

end Cert.LibRowCol
-- ==== Proof.KernelPayBase.lean ====
/-
  The masked L1 sum of the kernel body, stretch by stretch (first part).

  The body transposes the keypoint block to `[63, 4096]` and adds up, coordinate by coordinate and in order,
  `|kp d q − tgt t d| · msk t d` over the 63 coordinates `d`: each term is row `d` of the transposed keypoints
  broadcast over the 64 targets, less column `d` of the targets broadcast over the 4096 queries, in absolute value,
  times column `d` of the mask broadcast the same way (`absPart`, `mskPart`). The printed body is cut into
  consecutive stretches; the sum is carried through them as a running sum `accV n`: the zero tile plus the first
  `n` terms. Here: the first stretch (coordinates 0, 1, 2, and coordinate 3's two factors) and the second
  (coordinates 3 to 7, and coordinate 8's two factors), which is the pattern of the ten stretches after it.
-/
import proofs.«409327_j90804198572657_3_alg».proof.Proof.Gen.KernelIdeal.Skeleton
import proofs.«409327_j90804198572657_3_alg».proof.Proof.LibRowCol
import Idealize.ShloMosaic.Lib.ValueIdx
import Idealize.ShloMosaic.Lib.ValueLayout
import Idealize.ShloMosaic.Lib.Pipeline.Value

noncomputable section

namespace Cert.KernelPay

open Idealize.ShloMosaic Idealize.ShloMosaic.ValueIdx Cert.KernelIdeal Cert.KernelIdeal.Gen Cert.LibRowCol

/-- Coordinate `d`'s absolute difference over the tile: entry `(t, q)` is `|kp d q − tgt t d|`. -/
def absPart (v2 : FVec Ideal S63x4096 .f32) (v47 : Vec Ideal S64x63 .f32) (d : ℕ) : FVec Ideal S64x4096 .f32 := fun j =>
  if h : d < 63 then max (v2 (ix2 ⟨d, h⟩ (j 1)) - v47 (ix2 (j 0) ⟨d, h⟩)) (-(v2 (ix2 ⟨d, h⟩ (j 1)) - v47 (ix2 (j 0) ⟨d, h⟩))) else 0

/-- Coordinate `d`'s mask column over the tile: entry `(t, q)` is `msk t d`. -/
def mskPart (v51 : FVec Ideal S64x63 .f32) (d : ℕ) : FVec Ideal S64x4096 .f32 := fun j =>
  if h : d < 63 then v51 (ix2 (j 0) ⟨d, h⟩) else 0

theorem absPart_eq (d : ℕ) (v2 : FVec Ideal S63x4096 .f32) (v47 : Vec Ideal S64x63 .f32)
    (hs1 : S63x4096.Slices ![d, 0] S1x4096) (hc1 : S1x4096.ShapeCasts S4096) (hc2 : S4096.ShapeCasts S1x4096)
    (hb1 : S1x4096.Broadcasts S64x4096) (hs2 : S64x63.Slices ![0, d] S64x1) (hb2 : S64x1.Broadcasts S64x4096) :
    absf (subf (broadcastTo S64x4096 (shapeCast S1x4096 (shapeCast S4096 (extractStridedSlice S1x4096 ![d, 0] v2 hs1) hc1) hc2) hb1)
        (broadcastTo S64x4096 (extractStridedSlice S64x1 ![0, d] v47 hs2) hb2)) = absPart v2 v47 d := by
  have hd : d < 63 := hs1.2 0
  funext j
  obtain ⟨t, q, rfl⟩ : ∃ (t : Fin 64) (q : Fin 4096), j = ix2 t q := ⟨j 0, j 1, eq_ix2 j⟩
  unfold absPart
  rw [dif_pos hd]
  show max (_ - _) (-(_ - _)) = _
  rw [row_bcast_apply d v2 hs1 hc1 hc2 hb1 t q ⟨d, hd⟩ rfl, col_bcast_apply d v47 hs2 hb2 t q ⟨d, hd⟩ rfl]

theorem mskPart_eq (d : ℕ) (v51 : FVec Ideal S64x63 .f32) (hs : S64x63.Slices ![0, d] S64x1) (hb : S64x1.Broadcasts S64x4096) :
    broadcastTo S64x4096 (extractStridedSlice S64x1 ![0, d] v51 hs) hb = mskPart v51 d := by
  have hd : d < 63 := hs.2 1
  funext j
  obtain ⟨t, q, rfl⟩ : ∃ (t : Fin 64) (q : Fin 4096), j = ix2 t q := ⟨j 0, j 1, eq_ix2 j⟩
  unfold mskPart
  rw [dif_pos hd, col_bcast_apply d v51 hs hb t q ⟨d, hd⟩ rfl]

/-- The same difference once the target column's broadcast has been read as a mask-style column. -/
theorem absPart_eq' (d : ℕ) (v2 : FVec Ideal S63x4096 .f32) (v47 : Vec Ideal S64x63 .f32)
    (hs1 : S63x4096.Slices ![d, 0] S1x4096) (hc1 : S1x4096.ShapeCasts S4096) (hc2 : S4096.ShapeCasts S1x4096)
    (hb1 : S1x4096.Broadcasts S64x4096) :
    absf (subf (broadcastTo S64x4096 (shapeCast S1x4096 (shapeCast S4096 (extractStridedSlice S1x4096 ![d, 0] v2 hs1) hc1) hc2) hb1)
        (mskPart v47 d)) = absPart v2 v47 d := by
  have hd : d < 63 := hs1.2 0
  funext j
  obtain ⟨t, q, rfl⟩ : ∃ (t : Fin 64) (q : Fin 4096), j = ix2 t q := ⟨j 0, j 1, eq_ix2 j⟩
  unfold absPart
  rw [dif_pos hd]
  show max (_ - mskPart v47 d (ix2 t q)) (-(_ - mskPart v47 d (ix2 t q))) = _
  unfold mskPart
  rw [dif_pos hd, row_bcast_apply d v2 hs1 hc1 hc2 hb1 t q ⟨d, hd⟩ rfl]

/-- The running sum over the tile: the zero tile plus the first `n` coordinates' masked absolute differences, added in
    order. -/
def accV (v2 : FVec Ideal S63x4096 .f32) (v47 : Vec Ideal S64x63 .f32) (v51 : FVec Ideal S64x63 .f32) :
    ℕ → FVec Ideal S64x4096 .f32
  | 0 => broadcast S64x4096 (Scalar.ofBits .f32 0x00000000#32)
  | n + 1 => addf (accV v2 v47 v51 n) (mulf (absPart v2 v47 n) (mskPart v51 n))

variable (v2 : FVec Ideal S63x4096 .f32) (v47 : Vec Ideal S64x63 .f32) (v51 : FVec Ideal S64x63 .f32)

theorem pay9_eq : k0_pay9 v2 v47 = accV v2 v47 (k0_pay8 v47) 3 := by
  simp only [k0_pay9, absPart_eq', mskPart_eq]
  rfl

theorem pay10_eq : k0_pay10 v2 v47 = absPart v2 v47 3 := by
  simp only [k0_pay10, absPart_eq', mskPart_eq]

theorem pay11_eq : k0_pay11 v47 = mskPart (k0_pay8 v47) 3 := by
  simp only [k0_pay11, mskPart_eq]

-- BEGIN stretch pattern
/-- A middle stretch: it takes the running sum and the next coordinate's two factors, multiplies them in, adds four
    whole coordinates, and hands on the running sum five coordinates further. -/
theorem pay12_eq : k0_pay12 v2 v47 v51 (accV v2 v47 v51 3) (absPart v2 v47 3) (mskPart v51 3) = accV v2 v47 v51 8 := by
  simp only [k0_pay12, absPart_eq', mskPart_eq]
  rfl

/-- It also hands on the absolute difference of the coordinate after those, -/
theorem pay13_eq : k0_pay13 v2 v47 = absPart v2 v47 8 := by
  simp only [k0_pay13, absPart_eq', mskPart_eq]

/-- and that coordinate's mask column. -/
theorem pay14_eq : k0_pay14 v51 = mskPart v51 8 := by
  simp only [k0_pay14, mskPart_eq]
-- END stretch pattern

end Cert.KernelPay

end
-- ==== Proof.KernelPayStretches.lean ====
import proofs.«409327_j90804198572657_3_alg».proof.Proof.KernelPayBase

noncomputable section

namespace Cert.KernelPay

open Idealize.ShloMosaic Idealize.ShloMosaic.ValueIdx Cert.KernelIdeal Cert.KernelIdeal.Gen Cert.LibRowCol

variable (v2 : FVec Ideal S63x4096 .f32) (v47 : Vec Ideal S64x63 .f32) (v51 : FVec Ideal S64x63 .f32)

/-- A middle stretch: it takes the running sum and the next coordinate's two factors, multiplies them in, adds four
    whole coordinates, and hands on the running sum five coordinates further. -/
theorem pay15_eq : k0_pay15 v2 v47 v51 (accV v2 v47 v51 8) (absPart v2 v47 8) (mskPart v51 8) = accV v2 v47 v51 13 := by
  simp only [k0_pay15, absPart_eq', mskPart_eq]
  rfl

/-- It also hands on the absolute difference of the coordinate after those, -/
theorem pay16_eq : k0_pay16 v2 v47 = absPart v2 v47 13 := by
  simp only [k0_pay16, absPart_eq', mskPart_eq]

/-- and that coordinate's mask column. -/
theorem pay17_eq : k0_pay17 v51 = mskPart v51 13 := by
  simp only [k0_pay17, mskPart_eq]

/-- A middle stretch: it takes the running sum and the next coordinate's two factors, multiplies them in, adds four
    whole coordinates, and hands on the running sum five coordinates further. -/
theorem pay18_eq : k0_pay18 v2 v47 v51 (accV v2 v47 v51 13) (absPart v2 v47 13) (mskPart v51 13) = accV v2 v47 v51 18 := by
  simp only [k0_pay18, absPart_eq', mskPart_eq]
  rfl

/-- It also hands on the absolute difference of the coordinate after those, -/
theorem pay19_eq : k0_pay19 v2 v47 = absPart v2 v47 18 := by
  simp only [k0_pay19, absPart_eq', mskPart_eq]

/-- and that coordinate's mask column. -/
theorem pay20_eq : k0_pay20 v51 = mskPart v51 18 := by
  simp only [k0_pay20, mskPart_eq]

/-- A middle stretch: it takes the running sum and the next coordinate's two factors, multiplies them in, adds four
    whole coordinates, and hands on the running sum five coordinates further. -/
theorem pay21_eq : k0_pay21 v2 v47 v51 (accV v2 v47 v51 18) (absPart v2 v47 18) (mskPart v51 18) = accV v2 v47 v51 23 := by
  simp only [k0_pay21, absPart_eq', mskPart_eq]
  rfl

/-- It also hands on the absolute difference of the coordinate after those, -/
theorem pay22_eq : k0_pay22 v2 v47 = absPart v2 v47 23 := by
  simp only [k0_pay22, absPart_eq', mskPart_eq]

/-- and that coordinate's mask column. -/
theorem pay23_eq : k0_pay23 v51 = mskPart v51 23 := by
  simp only [k0_pay23, mskPart_eq]

/-- A middle stretch: it takes the running sum and the next coordinate's two factors, multiplies them in, adds four
    whole coordinates, and hands on the running sum five coordinates further. -/
theorem pay24_eq : k0_pay24 v2 v47 v51 (accV v2 v47 v51 23) (absPart v2 v47 23) (mskPart v51 23) = accV v2 v47 v51 28 := by
  simp only [k0_pay24, absPart_eq', mskPart_eq]
  rfl

/-- It also hands on the absolute difference of the coordinate after those, -/
theorem pay25_eq : k0_pay25 v2 v47 = absPart v2 v47 28 := by
  simp only [k0_pay25, absPart_eq', mskPart_eq]

/-- and that coordinate's mask column. -/
theorem pay26_eq : k0_pay26 v51 = mskPart v51 28 := by
  simp only [k0_pay26, mskPart_eq]

/-- A middle stretch: it takes the running sum and the next coordinate's two factors, multiplies them in, adds four
    whole coordinates, and hands on the running sum five coordinates further. -/
theorem pay27_eq : k0_pay27 v2 v47 v51 (accV v2 v47 v51 28) (absPart v2 v47 28) (mskPart v51 28) = accV v2 v47 v51 33 := by
  simp only [k0_pay27, absPart_eq', mskPart_eq]
  rfl

/-- It also hands on the absolute difference of the coordinate after those, -/
theorem pay28_eq : k0_pay28 v2 v47 = absPart v2 v47 33 := by
  simp only [k0_pay28, absPart_eq', mskPart_eq]

/-- and that coordinate's mask column. -/
theorem pay29_eq : k0_pay29 v51 = mskPart v51 33 := by
  simp only [k0_pay29, mskPart_eq]

/-- A middle stretch: it takes the running sum and the next coordinate's two factors, multiplies them in, adds four
    whole coordinates, and hands on the running sum five coordinates further. -/
theorem pay30_eq : k0_pay30 v2 v47 v51 (accV v2 v47 v51 33) (absPart v2 v47 33) (mskPart v51 33) = accV v2 v47 v51 38 := by
  simp only [k0_pay30, absPart_eq', mskPart_eq]
  rfl

/-- It also hands on the absolute difference of the coordinate after those, -/
theorem pay31_eq : k0_pay31 v2 v47 = absPart v2 v47 38 := by
  simp only [k0_pay31, absPart_eq', mskPart_eq]

/-- and that coordinate's mask column. -/
theorem pay32_eq : k0_pay32 v51 = mskPart v51 38 := by
  simp only [k0_pay32, mskPart_eq]

/-- A middle stretch: it takes the running sum and the next coordinate's two factors, multiplies them in, adds four
    whole coordinates, and hands on the running sum five coordinates further. -/
theorem pay33_eq : k0_pay33 v2 v47 v51 (accV v2 v47 v51 38) (absPart v2 v47 38) (mskPart v51 38) = accV v2 v47 v51 43 := by
  simp only [k0_pay33, absPart_eq', mskPart_eq]
  rfl

/-- It also hands on the absolute difference of the coordinate after those, -/
theorem pay34_eq : k0_pay34 v2 v47 = absPart v2 v47 43 := by
  simp only [k0_pay34, absPart_eq', mskPart_eq]

/-- and that coordinate's mask column. -/
theorem pay35_eq : k0_pay35 v51 = mskPart v51 43 := by
  simp only [k0_pay35, mskPart_eq]

/-- A middle stretch: it takes the running sum and the next coordinate's two factors, multiplies them in, adds four
    whole coordinates, and hands on the running sum five coordinates further. -/
theorem pay36_eq : k0_pay36 v2 v47 v51 (accV v2 v47 v51 43) (absPart v2 v47 43) (mskPart v51 43) = accV v2 v47 v51 48 := by
  simp only [k0_pay36, absPart_eq', mskPart_eq]
  rfl

/-- It also hands on the absolute difference of the coordinate after those, -/
theorem pay37_eq : k0_pay37 v2 v47 = absPart v2 v47 48 := by
  simp only [k0_pay37, absPart_eq', mskPart_eq]

/-- and that coordinate's mask column. -/
theorem pay38_eq : k0_pay38 v51 = mskPart v51 48 := by
  simp only [k0_pay38, mskPart_eq]

/-- A middle stretch: it takes the running sum and the next coordinate's two factors, multiplies them in, adds four
    whole coordinates, and hands on the running sum five coordinates further. -/
theorem pay39_eq : k0_pay39 v2 v47 v51 (accV v2 v47 v51 48) (absPart v2 v47 48) (mskPart v51 48) = accV v2 v47 v51 53 := by
  simp only [k0_pay39, absPart_eq', mskPart_eq]
  rfl

/-- It also hands on the absolute difference of the coordinate after those, -/
theorem pay40_eq : k0_pay40 v2 v47 = absPart v2 v47 53 := by
  simp only [k0_pay40, absPart_eq', mskPart_eq]

/-- and that coordinate's mask column. -/
theorem pay41_eq : k0_pay41 v51 = mskPart v51 53 := by
  simp only [k0_pay41, mskPart_eq]

/-- A middle stretch: it takes the running sum and the next coordinate's two factors, multiplies them in, adds four
    whole coordinates, and hands on the running sum five coordinates further. -/
theorem pay42_eq : k0_pay42 v2 v47 v51 (accV v2 v47 v51 53) (absPart v2 v47 53) (mskPart v51 53) = accV v2 v47 v51 58 := by
  simp only [k0_pay42, absPart_eq', mskPart_eq]
  rfl

/-- It also hands on the absolute difference of the coordinate after those, -/
theorem pay43_eq : k0_pay43 v2 v47 = absPart v2 v47 58 := by
  simp only [k0_pay43, absPart_eq', mskPart_eq]

/-- and that coordinate's mask column. -/
theorem pay44_eq : k0_pay44 v51 = mskPart v51 58 := by
  simp only [k0_pay44, mskPart_eq]

end Cert.KernelPay

end
-- ==== Proof.KernelTile.lean ====
/-
  One grid point's tile of the cost matrix, as a function of the point's blocks: 4096 query rows against the 64
  targets. Entry `(q, t)` is the kernel's spelling of the cost (`CostSpec.GK`) read at the block's own rows.
-/
import proofs.«409327_j90804198572657_3_alg».proof.KernelIdeal
import proofs.«409327_j90804198572657_3_alg».proof.Proof.CostSpec
import Idealize.ShloMosaic.Lib.ValueIdx

noncomputable section

namespace Cert.KernelTile

open Idealize.ShloMosaic Idealize.ShloMosaic.ValueIdx Cert.KernelIdeal Cert.CostSpec

/-- The tile of the keypoint block `x0`, the logit block `x1`, the targets `x2` and the one-hot rows `x3`. -/
def tileG (x0 : Vec Ideal S4096x63 .f32) (x1 : Vec Ideal S4096x2 .f32) (x2 : Vec Ideal S64x63 .f32)
    (x3 : Vec Ideal S64x2 .f32) : Vec Ideal S4096x64 .f32 := fun j =>
  c1 * (c0 + ∑ k : Fin 63,
      max (x0 (ix2 (j 0) k) - x2 (ix2 (j 1) k)) (-(x0 (ix2 (j 0) k) - x2 (ix2 (j 1) k))) * maskK (x2 (ix2 (j 1) k)))
    + c1 * ((c0 + x3 (ix2 (j 1) (0 : Fin 2)) * focalK (Ideal.logistic (x1 (ix2 (j 0) (0 : Fin 2)))))
        + x3 (ix2 (j 1) (1 : Fin 2)) * focalK (Ideal.logistic (x1 (ix2 (j 0) (1 : Fin 2)))))

end Cert.KernelTile

end
-- ==== Proof.KernelPay.lean ====
/-
  The kernel body's arithmetic over one grid point's blocks is the cost tile `KernelTile.tileG`.

  After the stretches of the masked L1 sum (the running sum `accV 63`, which read at an entry is `0 + ∑ d < 63` of the
  terms: `accV_apply`), the body weights the sum and the class tile by one, adds them and transposes the `[64, 4096]`
  tile back to `[4096, 64]`. The class tile is the focal difference of the sigmoid on the transposed logits
  (`[2, 4096]`), picked per target by the one-hot rows: `0 + h₀ · f₀ + h₁ · f₁`, each `hᵢ` a column of the one-hot
  rows broadcast over the queries, each `fᵢ` a row of the focal tile broadcast over the targets. Read through the two
  transposes, entry `(q, t)` of the result is `tileG` of the four blocks.
-/
import proofs.«409327_j90804198572657_3_alg».proof.Proof.KernelPayStretches
import proofs.«409327_j90804198572657_3_alg».proof.Proof.CostSpec
import proofs.«409327_j90804198572657_3_alg».proof.Proof.KernelTile

noncomputable section

namespace Cert.KernelPay

open Idealize.ShloMosaic Idealize.ShloMosaic.ValueIdx Cert.KernelIdeal Cert.KernelIdeal.Gen Cert.LibRowCol Cert.CostSpec
  Cert.KernelTile

section
variable (v2 : FVec Ideal S63x4096 .f32) (v47 : Vec Ideal S64x63 .f32) (v51 : FVec Ideal S64x63 .f32)

/-- The last stretch: the running sum completed, weighted by one, added to the weighted class tile, transposed. -/
theorem pay45_eq (v46 : FVec Ideal S64x4096 .f32) :
    k0_pay45 v2 v46 v47 v51 (accV v2 v47 v51 58) (absPart v2 v47 58) (mskPart v51 58)
      = transpose S4096x64 [1, 0]
          (addf (mulf (broadcast S64x4096 (Scalar.ofBits .f32 0x3F800000#32)) (accV v2 v47 v51 63))
            (mulf (broadcast S64x4096 (Scalar.ofBits .f32 0x3F800000#32)) v46)) Facts₀.transposes_S64x4096_p1_0_S4096x64 := by
  simp only [k0_pay45, absPart_eq', mskPart_eq]
  rfl

/-- The running sum at an entry: the zero word plus the first `n` terms. -/
theorem accV_apply (n : ℕ) (j : S64x4096.Idx) :
    accV v2 v47 v51 n j = c0 + ∑ d ∈ Finset.range n, absPart v2 v47 d j * mskPart v51 d j := by
  induction n with
  | zero => show c0 = _; rw [Finset.sum_range_zero, add_zero]
  | succ n ih =>
    show accV v2 v47 v51 n j + absPart v2 v47 n j * mskPart v51 n j = _
    rw [ih, Finset.sum_range_succ, add_assoc]
end

/-! ## The blocks read through the body's first operations -/

/-- The transposed keypoint block at `(d, q)` is the block at `(q, d)`. -/
theorem pay1_apply (x0 : Vec Ideal S4096x63 .f32) (d : Fin 63) (q : Fin 4096) : k0_pay1 x0 (ix2 d q) = x0 (ix2 q d) := by
  unfold k0_pay1
  rw [transpose_ix2_apply, shapeCast_self]

/-- The mask at `(t, d)`: the comparison with zero, widened and read signed. -/
theorem pay8_apply (x2 : Vec Ideal S64x63 .f32) (t : Fin 64) (d : Fin 63) : k0_pay8 x2 (ix2 t d) = maskK (x2 (ix2 t d)) := rfl

/-- The focal tile at `(c, q)`: the focal difference of the sigmoid of the logit block at `(q, c)`. -/
theorem pay2_apply (x1 : Vec Ideal S4096x2 .f32) (c : Fin 2) (q : Fin 4096) :
    k0_pay2 x1 (ix2 c q) = focalK (Ideal.logistic (x1 (ix2 q c))) := by
  have h5 : transpose S2x4096 [1, 0] (shapeCast S4096x2 x1 Facts₀.shapeCasts_S4096x2_S4096x2) Facts₀.transposes_S4096x2_p1_0_S2x4096 (ix2 c q)
      = x1 (ix2 q c) := by rw [transpose_ix2_apply, shapeCast_self]
  show focalK (Ideal.logistic (transpose S2x4096 [1, 0] (shapeCast S4096x2 x1 _) _ (ix2 c q))) = _
  rw [h5]

/-- The class tile at `(t, q)`. -/
theorem cls_apply (x1 : Vec Ideal S4096x2 .f32) (x3 : Vec Ideal S64x2 .f32) (t : Fin 64) (q : Fin 4096) :
    k0_pay7 (k0_pay4 x1 x3) (k0_pay5 x3) (k0_pay6 x1) (ix2 t q)
      = (c0 + x3 (ix2 t (0 : Fin 2)) * focalK (Ideal.logistic (x1 (ix2 q (0 : Fin 2)))))
        + x3 (ix2 t (1 : Fin 2)) * focalK (Ideal.logistic (x1 (ix2 q (1 : Fin 2)))) := by
  have e3 : k0_pay3 x3 = x3 := by unfold k0_pay3; rw [shapeCast_self]
  unfold k0_pay7 k0_pay4 k0_pay5 k0_pay6
  show (c0 + broadcastTo S64x4096 (extractStridedSlice S64x1 ![0, 0] (k0_pay3 x3) _) _ (ix2 t q)
        * broadcastTo S64x4096 (extractStridedSlice S1x4096 ![0, 0] (k0_pay2 x1) _) _ (ix2 t q))
      + broadcastTo S64x4096 (extractStridedSlice S64x1 ![0, 1] (k0_pay3 x3) _) _ (ix2 t q)
        * broadcastTo S64x4096 (extractStridedSlice S1x4096 ![1, 0] (k0_pay2 x1) _) _ (ix2 t q) = _
  rw [col_bcast_apply 0 (k0_pay3 x3) _ _ t q (0 : Fin 2) rfl, col_bcast_apply 1 (k0_pay3 x3) _ _ t q (1 : Fin 2) rfl,
    row_direct_bcast_apply 0 (k0_pay2 x1) _ _ t q (0 : Fin 2) rfl, row_direct_bcast_apply 1 (k0_pay2 x1) _ _ t q (1 : Fin 2) rfl,
    e3, pay2_apply, pay2_apply]

/-! ## The tile -/

/-- THE TILE: the value of the body's one store, the last stretch's result over all the stretches before it, is
    `tileG` of the four blocks. -/
theorem pay_tile_eq (x0 : Vec Ideal S4096x63 .f32) (x1 : Vec Ideal S4096x2 .f32) (x2 : Vec Ideal S64x63 .f32)
    (x3 : Vec Ideal S64x2 .f32) :
    k0_pay45 (k0_pay1 x0) (k0_pay7 (k0_pay4 x1 x3) (k0_pay5 x3) (k0_pay6 x1)) x2 (k0_pay8 x2)
      (k0_pay42 (k0_pay1 x0) x2 (k0_pay8 x2) (k0_pay39 (k0_pay1 x0) x2 (k0_pay8 x2)
      (k0_pay36 (k0_pay1 x0) x2 (k0_pay8 x2) (k0_pay33 (k0_pay1 x0) x2 (k0_pay8 x2)
      (k0_pay30 (k0_pay1 x0) x2 (k0_pay8 x2) (k0_pay27 (k0_pay1 x0) x2 (k0_pay8 x2)
      (k0_pay24 (k0_pay1 x0) x2 (k0_pay8 x2) (k0_pay21 (k0_pay1 x0) x2 (k0_pay8 x2)
      (k0_pay18 (k0_pay1 x0) x2 (k0_pay8 x2) (k0_pay15 (k0_pay1 x0) x2 (k0_pay8 x2)
      (k0_pay12 (k0_pay1 x0) x2 (k0_pay8 x2) (k0_pay9 (k0_pay1 x0) x2) (k0_pay10 (k0_pay1 x0) x2) (k0_pay11 x2)) (k0_pay13 (k0_pay1 x0) x2) (k0_pay14 (k0_pay8 x2))) (k0_pay16 (k0_pay1 x0) x2) (k0_pay17 (k0_pay8 x2))) (k0_pay19 (k0_pay1 x0) x2) (k0_pay20 (k0_pay8 x2))) (k0_pay22 (k0_pay1 x0) x2) (k0_pay23 (k0_pay8 x2))) (k0_pay25 (k0_pay1 x0) x2) (k0_pay26 (k0_pay8 x2))) (k0_pay28 (k0_pay1 x0) x2) (k0_pay29 (k0_pay8 x2))) (k0_pay31 (k0_pay1 x0) x2) (k0_pay32 (k0_pay8 x2))) (k0_pay34 (k0_pay1 x0) x2) (k0_pay35 (k0_pay8 x2))) (k0_pay37 (k0_pay1 x0) x2) (k0_pay38 (k0_pay8 x2))) (k0_pay40 (k0_pay1 x0) x2) (k0_pay41 (k0_pay8 x2))) (k0_pay43 (k0_pay1 x0) x2) (k0_pay44 (k0_pay8 x2))
      = tileG x0 x1 x2 x3 := by
  simp only [pay9_eq, pay10_eq, pay11_eq, pay12_eq, pay13_eq, pay14_eq, pay15_eq, pay16_eq, pay17_eq, pay18_eq, pay19_eq, pay20_eq, pay21_eq, pay22_eq, pay23_eq, pay24_eq, pay25_eq, pay26_eq, pay27_eq, pay28_eq, pay29_eq, pay30_eq, pay31_eq, pay32_eq, pay33_eq, pay34_eq, pay35_eq, pay36_eq, pay37_eq, pay38_eq, pay39_eq, pay40_eq, pay41_eq, pay42_eq, pay43_eq, pay44_eq]
  rw [pay45_eq]
  funext j
  obtain ⟨q, t, rfl⟩ : ∃ (q : Fin 4096) (t : Fin 64), j = ix2 q t := ⟨j 0, j 1, eq_ix2 j⟩
  rw [transpose_ix2_apply]
  show c1 * accV (k0_pay1 x0) x2 (k0_pay8 x2) 63 (ix2 t q)
      + c1 * k0_pay7 (k0_pay4 x1 x3) (k0_pay5 x3) (k0_pay6 x1) (ix2 t q) = _
  rw [accV_apply, cls_apply, Finset.sum_range]
  have hs : ∀ k : Fin 63, absPart (k0_pay1 x0) x2 k.val (ix2 t q) * mskPart (k0_pay8 x2) k.val (ix2 t q)
      = max (x0 (ix2 q k) - x2 (ix2 t k)) (-(x0 (ix2 q k) - x2 (ix2 t k))) * maskK (x2 (ix2 t k)) := by
    intro k
    unfold absPart mskPart
    rw [dif_pos k.isLt, dif_pos k.isLt, pay1_apply, pay8_apply]
  rw [Finset.sum_congr rfl (fun k _ => hs k)]
  rfl

end Cert.KernelPay

end
-- ==== Proof.KernelOut.lean ====
/-
  What the kernel body leaves in the output block's buffer at a grid point: the cost tile of the point's four input
  blocks. The body stores once, through the whole buffer, the value `KernelPay.pay_tile_eq` reads as `tileG`; its loads
  read the input buffers whole.
-/
import proofs.«409327_j90804198572657_3_alg».proof.Proof.FrameKernelIdeal
import proofs.«409327_j90804198572657_3_alg».proof.Proof.KernelPay
import Idealize.ShloMosaic.Lib.Pipeline.Value

noncomputable section

namespace Cert.KernelOut

open Idealize.ShloMosaic Cert.KernelIdeal Cert.KernelIdeal.Gen Cert.KernelTile

/-- The whole-buffer rectangle starts at the origin. -/
theorem zero_off : (![0, 0] : Fin 2 → Nat) = fun _ => 0 := funext fun a => by fin_cases a <;> rfl

/-- After the body the output block's buffer holds the tile of the four input blocks. -/
theorem out_tile (x0 : Vec Ideal S4096x63 .f32) (x1 : Vec Ideal S4096x2 .f32) (x2 : Vec Ideal S64x63 .f32)
    (x3 : Vec Ideal S64x2 .f32) : out0_4 (F := Ideal) x0 x1 x2 x3 = tileG x0 x1 x2 x3 := by
  unfold out0_4
  rw [View.canon_unit_zero zero_off]
  simp only [View.ld_unit_zero (S := S4096x63) zero_off, View.ld_unit_zero (S := S4096x2) zero_off,
    View.ld_unit_zero (S := S64x63) zero_off, View.ld_unit_zero (S := S64x2) zero_off]
  exact Cert.KernelPay.pay_tile_eq x0 x1 x2 x3

end Cert.KernelOut

end
-- ==== Proof.KernelArr.lean ====
/-
  From the kernel's blocks to its result array.

  The kernel walks four row blocks of 4096 query rows. At each it stores one tile of the cost matrix, a function of
  the point's keypoint and logit blocks and of the whole target and one-hot arrays. Here: a tile entry is the cost
  array's entry at the tile's own rows (`tileG_eq_GK`); each window's block is the rows of its array that the
  point's block index names (`blockIndex`, `kblk_apply` … `oblk_emb`); so what a point writes back is its block of
  the cost array (`flushed_eq`), the four blocks cover the output array (`cover`), and the array ends holding the
  cost array of the arrays the region finds (`final`). Those arrays are the flattened arguments and the one-hot rows
  of the class ids (`V_main_v1`, `V_main_v0`, `V_main_v2`), and the line after the region reshapes the output
  (`tail_main_v4`); together, the run (`kernel_run`).
-/
import proofs.«409327_j90804198572657_3_alg».proof.Proof.FrameKernelIdeal
import proofs.«409327_j90804198572657_3_alg».proof.Proof.KernelTile
import proofs.«409327_j90804198572657_3_alg».proof.Proof.CostSpec
import Idealize.ShloMosaic.Lib.Pipeline.Value
import Idealize.ShloMosaic.Lib.Pipeline.FrameSuffix
import Idealize.ShloMosaic.Lib.StableHlo.Run
import Idealize.ShloMosaic.Lib.ValueIdx

noncomputable section

namespace Cert.KernelArr

open Idealize.ShloMosaic Idealize.ShloMosaic.TcCoe Idealize.ShloMosaic.ValueIdx Idealize.SL.Sem
open Idealize.ShloMosaic.Pipeline (Dat)
open Cert.KernelIdeal Cert.KernelIdeal.Gen Cert.KernelTile Cert.CostSpec

variable (m : (ℓ : Loc nD τ sig) → Buf (Elt Ideal) ℓ) (ρ : Dev nD → PrngReg)

/-! ## One tile is the cost array read at the tile's own rows -/

/-- A tile entry `(q, s)` reads row `q` of its keypoint and logit blocks and row `s` of its target and one-hot
    blocks; the cost array's entry `(r, s)` reads the same rows of the whole arrays. Where those rows agree the two
    entries are one term. -/
theorem tileG_eq_GK (x0 : Vec Ideal S4096x63 .f32) (x1 : Vec Ideal S4096x2 .f32) (x2 : Vec Ideal S64x63 .f32)
    (x3 : Vec Ideal S64x2 .f32) (K2 : FVec Ideal SQx63 .f32) (L2 : FVec Ideal SQx2 .f32) (T : FVec Ideal STx63 .f32)
    (OH : FVec Ideal STx2 .f32) (q : Fin 4096) (s : Fin 64) (r : Fin 16384)
    (hK : ∀ k : Fin 63, x0 (ix2 q k) = K2 (ix2 r k)) (hL : ∀ b : Fin 2, x1 (ix2 q b) = L2 (ix2 r b))
    (hT : ∀ k : Fin 63, x2 (ix2 s k) = T (ix2 s k)) (hO : ∀ b : Fin 2, x3 (ix2 s b) = OH (ix2 s b)) :
    tileG x0 x1 x2 x3 (ix2 q s) = GK K2 L2 T OH (ix2 r s) := by
  unfold tileG GK kpTerm
  show c1 * (c0 + ∑ k : Fin 63, max (x0 (ix2 q k) - x2 (ix2 s k)) (-(x0 (ix2 q k) - x2 (ix2 s k))) * maskK (x2 (ix2 s k)))
      + c1 * ((c0 + x3 (ix2 s (0 : Fin 2)) * focalK (Ideal.logistic (x1 (ix2 q (0 : Fin 2)))))
          + x3 (ix2 s (1 : Fin 2)) * focalK (Ideal.logistic (x1 (ix2 q (1 : Fin 2)))))
    = c1 * (c0 + ∑ k : Fin 63, max (K2 (ix2 r k) - T (ix2 s k)) (-(K2 (ix2 r k) - T (ix2 s k))) * maskK (T (ix2 s k)))
      + c1 * ((c0 + OH (ix2 s (0 : Fin 2)) * focalK (Ideal.logistic (L2 (ix2 r (0 : Fin 2)))))
          + OH (ix2 s (1 : Fin 2)) * focalK (Ideal.logistic (L2 (ix2 r (1 : Fin 2)))))
  simp only [hK, hL, hT, hO]

/-! ## Where each window's block lies -/

/-- The block indices, decided over the four grid points: the keypoint, logit and output windows walk the row blocks
    with the point, the target and one-hot windows stay on their one block. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- A grid point is one of four. -/
theorem point_lt (t : Fin cfg0.N) : t.val < 4 := by
  have h := t.isLt
  have hN : cfg0.N = 4 := N_0
  omega

/-- Row `q` of point `t`'s row block, as a row of the whole array. -/
def rowOf (t : Fin cfg0.N) (q : Fin 4096) : Fin 16384 := ⟨t.val * 4096 + q.val, by have := point_lt t; omega⟩

/-- The keypoint block at point `t` is rows `4096 t … 4096 t + 4095` of the flattened keypoints. -/
theorem kblk_apply (c : Dev nD) (t : Fin cfg0.N) (q : Fin 4096) (k : Fin 63) :
    (iblk m c 0 t : Vec Ideal S4096x63 .f32) (ix2 q k) = (V m c main_v1 : Vec Ideal S16384x63 .f32) (ix2 (rowOf t q) k) := by
  obtain ⟨e0, e1, -⟩ := blockIndex t
  show V m c main_v1 (((cfg0.win 0).blk t).view.emb (ix2 q k)) = V m c main_v1 (ix2 (rowOf t q) k)
  congr 1
  funext a; apply Fin.ext
  match a with
  | ⟨0, _⟩ => show win0_0.index t (0 : Fin 2) * 4096 + 1 * q.val = t.val * 4096 + q.val; omega
  | ⟨1, _⟩ => show win0_0.index t (1 : Fin 2) * 63 + 1 * k.val = k.val; omega

/-- The logit block at point `t` is the same rows of the flattened logits. -/
theorem lblk_apply (c : Dev nD) (t : Fin cfg0.N) (q : Fin 4096) (b : Fin 2) :
    (iblk m c 1 t : Vec Ideal S4096x2 .f32) (ix2 q b) = (V m c main_v0 : Vec Ideal S16384x2 .f32) (ix2 (rowOf t q) b) := by
  obtain ⟨-, -, e0, e1, -⟩ := blockIndex t
  show V m c main_v0 (((cfg0.win 1).blk t).view.emb (ix2 q b)) = V m c main_v0 (ix2 (rowOf t q) b)
  congr 1
  funext a; apply Fin.ext
  match a with
  | ⟨0, _⟩ => show win0_1.index t (0 : Fin 2) * 4096 + 1 * q.val = t.val * 4096 + q.val; omega
  | ⟨1, _⟩ => show win0_1.index t (1 : Fin 2) * 2 + 1 * b.val = b.val; omega

/-- The target block is the whole target array at every point. -/
theorem tblk_apply (c : Dev nD) (t : Fin cfg0.N) (s : Fin 64) (k : Fin 63) :
    (iblk m c 2 t : Vec Ideal S64x63 .f32) (ix2 s k) = (V m c main_arg2 : Vec Ideal S64x63 .f32) (ix2 s k) := by
  obtain ⟨-, -, -, -, e0, e1, -⟩ := blockIndex t
  show V m c main_arg2 (((cfg0.win 2).blk t).view.emb (ix2 s k)) = V m c main_arg2 (ix2 s k)
  congr 1
  funext a; apply Fin.ext
  match a with
  | ⟨0, _⟩ => show win0_2.index t (0 : Fin 2) * 64 + 1 * s.val = s.val; omega
  | ⟨1, _⟩ => show win0_2.index t (1 : Fin 2) * 63 + 1 * k.val = k.val; omega

/-- The one-hot block is the whole one-hot array at every point. -/
theorem hblk_apply (c : Dev nD) (t : Fin cfg0.N) (s : Fin 64) (b : Fin 2) :
    (iblk m c 3 t : Vec Ideal S64x2 .f32) (ix2 s b) = (V m c main_v2 : Vec Ideal S64x2 .f32) (ix2 s b) := by
  obtain ⟨-, -, -, -, -, -, e0, e1, -⟩ := blockIndex t
  show V m c main_v2 (((cfg0.win 3).blk t).view.emb (ix2 s b)) = V m c main_v2 (ix2 s b)
  congr 1
  funext a; apply Fin.ext
  match a with
  | ⟨0, _⟩ => show win0_3.index t (0 : Fin 2) * 64 + 1 * s.val = s.val; omega
  | ⟨1, _⟩ => show win0_3.index t (1 : Fin 2) * 2 + 1 * b.val = b.val; omega

/-- Entry `(q, s)` of the output block at point `t` is entry `(4096 t + q, s)` of the output array. -/
theorem oblk_emb (t : Fin cfg0.N) (q : Fin 4096) (s : Fin 64) :
    ((cfg0.win 4).blk t).view.emb (ix2 q s) = (ix2 (rowOf t q) s : S16384x64.Idx) := by
  obtain ⟨-, -, -, -, -, -, -, -, e0, e1⟩ := blockIndex t
  funext a; apply Fin.ext
  match a with
  | ⟨0, _⟩ => show win0_4.index t (0 : Fin 2) * 4096 + 1 * q.val = t.val * 4096 + q.val; omega
  | ⟨1, _⟩ => show win0_4.index t (1 : Fin 2) * 64 + 1 * s.val = s.val; omega

/-! ## What each point writes back, and the array after the last point -/

/-- WHAT POINT `t` WRITES BACK is block `t` of the cost array of the four arrays as the region finds them, given
    that the body's stored value is the tile of its four blocks. -/
theorem flushed_eq (h_tile : ∀ x0 x1 x2 x3, out0_4 (F := Ideal) x0 x1 x2 x3 = tileG x0 x1 x2 x3) (c : Dev nD)
    (t : Fin cfg0.N) :
    (dats m 0 c).flushed 4 t = ((cfg0.win 4).blk t).view.read (Elt Ideal)
      (GK (V m c main_v1) (V m c main_v0) (V m c main_arg2) (V m c main_v2)) := by
  show (cfg0.win 4).cut (grid0.coords t) ((dats m 0 c).after 4 t) = _
  rw [after0_4, h_tile]
  refine funext fun (j : S4096x64.Idx) => ?_
  obtain ⟨q, s, rfl⟩ : ∃ (q : Fin 4096) (s : Fin 64), j = ix2 q s := ⟨j 0, j 1, eq_ix2 j⟩
  show tileG (iblk m c 0 t) (iblk m c 1 t) (iblk m c 2 t) (iblk m c 3 t) (ix2 q s)
    = GK (V m c main_v1) (V m c main_v0) (V m c main_arg2) (V m c main_v2) (((cfg0.win 4).blk t).view.emb (ix2 q s))
  rw [oblk_emb t q s]
  exact tileG_eq_GK (iblk m c 0 t) (iblk m c 1 t) (iblk m c 2 t) (iblk m c 3 t)
    (V m c main_v1) (V m c main_v0) (V m c main_arg2) (V m c main_v2) q s (rowOf t q)
    (fun k => kblk_apply m c t q k) (fun b => lblk_apply m c t q b) (fun k => tblk_apply m c t s k)
    (fun b => hblk_apply m c t s b)

/-- An index of the output array is in point `t`'s block iff each coordinate is in the block's range on its axis. -/
theorem mem_oblk (t : Fin cfg0.N) (i : S16384x64.Idx) :
    i ∈ ((cfg0.win 4).blk t).view.set ↔ ∀ a : Fin 2, win0_4.index t a * S4096x64.size a ≤ (i a).val
      ∧ (i a).val < win0_4.index t a * S4096x64.size a + S4096x64.size a := by
  show i ∈ ((View.whole main_v3).slice (win0_4.rect t)).set ↔ _
  rw [View.set_slice_whole, Rect.mem_set_unit]
  exact Iff.rfl

/-- THE COVER: row `r` of the output array lies in the block of point `r / 4096`, which writes back. -/
theorem cover (i : S16384x64.Idx) :
    ∃ t : Fin cfg0.N, (cfg0.win 4).flush t = true ∧ i ∈ ((cfg0.win 4).blk t).view.set := by
  have hi0 : (i 0).val < 16384 := (i 0).isLt
  have hi1 : (i 1).val < 64 := (i 1).isLt
  let t : Fin cfg0.N := ⟨(i 0).val / 4096, by have hN : cfg0.N = 4 := N_0; omega⟩
  obtain ⟨-, -, -, -, -, -, -, -, e0, e1⟩ := blockIndex t
  have ht : t.val = (i 0).val / 4096 := rfl
  refine ⟨t, flush0_4 t, ?_⟩
  rw [mem_oblk]
  intro a
  match a with
  | ⟨0, _⟩ =>
    show win0_4.index t (0 : Fin 2) * 4096 ≤ (i 0).val ∧ (i 0).val < win0_4.index t (0 : Fin 2) * 4096 + 4096
    omega
  | ⟨1, _⟩ =>
    show win0_4.index t (1 : Fin 2) * 64 ≤ (i 1).val ∧ (i 1).val < win0_4.index t (1 : Fin 2) * 64 + 64
    omega

/-- THE ARRAY after the last point: the cost array of the four arrays as the region finds them. -/
theorem final (h_tile : ∀ x0 x1 x2 x3, out0_4 (F := Ideal) x0 x1 x2 x3 = tileG x0 x1 x2 x3) (c : Dev nD) :
    (dats m 0 c).arrAt 4 cfg0.N = GK (V m c main_v1) (V m c main_v0) (V m c main_arg2) (V m c main_v2) :=
  (dats m 0 c).arrAt_eq_of_cover 4 (GK (V m c main_v1) (V m c main_v0) (V m c main_arg2) (V m c main_v2))
    (fun t _ => flushed_eq m h_tile c t) cover

/-! ## The host stretch before the region, read as values -/

/-- The one-hot rows of 64 class ids over the two classes, as the host stretch computes them: the ids broadcast
    along a new class axis, compared for equality with the class numbers `0, 1` broadcast along the id axis, the
    comparison's bit converted to a float. -/
def oneHot (ids : IVec S64 32) : FVec Ideal S64x2 .f32 :=
  uitofp (F := Ideal) .f32
    (cmpi .eq
      (broadcastInDim S64x2 ![0, 1] bcast_S64x1_S64x2_0_1 (broadcastInDim S64x1 ![0] bcast_S64_S64x1_0 ids))
      (broadcastInDim S64x2 ![0, 1] bcast_S1x2_S64x2_0_1 (iotaInDim S1x2 32 1)))

/-- The region finds the keypoints flattened to `[16384, 63]`. -/
theorem V_main_v1 (c : Dev nD) :
    V m c main_v1 = shapeCast S16384x63 (m ((c : Thread nD τ).loc main_arg1)) shapeCasts_S16x1024x63_S16384x63 := by
  show StableHlo.after (List.flatten [hostOps0, hostOps0_1]) (fun b => m (c, b)) (Proc.devRef .tc main_v1) = _
  simp only [hostOps0, hostOps0_1, List.flatten_cons, List.flatten_nil, List.append_nil, List.cons_append, List.nil_append]
  after_results
  rfl

/-- The region finds the logits flattened to `[16384, 2]`. -/
theorem V_main_v0 (c : Dev nD) :
    V m c main_v0 = shapeCast S16384x2 (m ((c : Thread nD τ).loc main_arg0)) shapeCasts_S16x1024x2_S16384x2 := by
  show StableHlo.after (List.flatten [hostOps0, hostOps0_1]) (fun b => m (c, b)) (Proc.devRef .tc main_v0) = _
  simp only [hostOps0, hostOps0_1, List.flatten_cons, List.flatten_nil, List.append_nil, List.cons_append, List.nil_append]
  after_results
  rfl

/-- The region finds the one-hot rows of the class ids. -/
theorem V_main_v2 (c : Dev nD) : V m c main_v2 = oneHot (m ((c : Thread nD τ).loc main_arg3)) := by
  show StableHlo.after (List.flatten [hostOps0, hostOps0_1]) (fun b => m (c, b)) (Proc.devRef .tc main_v2) = _
  simp only [hostOps0, hostOps0_1, List.flatten_cons, List.flatten_nil, List.append_nil, List.cons_append, List.nil_append]
  after_results
  rfl

/-! ## The line after the region, and the run -/

/-- The cost array of the arrays the region finds is the cost array of the flattened arguments and the one-hot rows. -/
theorem GK_args (c : Dev nD) :
    GK (V m c main_v1) (V m c main_v0) (V m c main_arg2) (V m c main_v2)
      = GK (shapeCast S16384x63 (m ((c.tc : Thread nD τ).loc main_arg1)) shapeCasts_S16x1024x63_S16384x63)
          (shapeCast S16384x2 (m ((c.tc : Thread nD τ).loc main_arg0)) shapeCasts_S16x1024x2_S16384x2)
          (m ((c.tc : Thread nD τ).loc main_arg2)) (oneHot (m ((c.tc : Thread nD τ).loc main_arg3))) := by
  rw [V_main_v1 m c, V_main_v0 m c, V_main_arg2 m c, V_main_v2 m c]

/-- The result buffer after the line that follows the region: the output array, which is the cost array of the
    flattened arguments and the one-hot rows, reshaped to `[16, 1024, 64]`. -/
theorem tail_main_v4 (h_tile : ∀ x0 x1 x2 x3, out0_4 (F := Ideal) x0 x1 x2 x3 = tileG x0 x1 x2 x3) (c : Dev nD) :
    Pipeline.afterTail₀ cfgs (dats m) 0 (V0 m) [hostOps1] c main_v4
      = shapeCast S16x1024x64
          (GK (shapeCast S16384x63 (m ((c.tc : Thread nD τ).loc main_arg1)) shapeCasts_S16x1024x63_S16384x63)
            (shapeCast S16384x2 (m ((c.tc : Thread nD τ).loc main_arg0)) shapeCasts_S16x1024x2_S16384x2)
            (m ((c.tc : Thread nD τ).loc main_arg2)) (oneHot (m ((c.tc : Thread nD τ).loc main_arg3))))
          shapeCasts_S16384x64_S16x1024x64 := by
  unfold Pipeline.afterTail₀
  show StableHlo.after hostOps1 _ (Proc.devRef .tc main_v4) = _
  simp only [hostOps1]
  after_results
  have hA : Pipeline.withArrays spec0 c (V0 m c) (fun w => (dats m 0 c).arrAt w cfg0.N)
      (Proc.devRef .tc (Pipeline.arrRef spec0 4))
      = GK (shapeCast S16384x63 (m ((c.tc : Thread nD τ).loc main_arg1)) shapeCasts_S16x1024x63_S16384x63)
          (shapeCast S16384x2 (m ((c.tc : Thread nD τ).loc main_arg0)) shapeCasts_S16x1024x2_S16384x2)
          (m ((c.tc : Thread nD τ).loc main_arg2)) (oneHot (m ((c.tc : Thread nD τ).loc main_arg3))) :=
    (Pipeline.withArrays_arr spec0 launch0.win.arr_inj c (V0 m c) (fun w => (dats m 0 c).arrAt w cfg0.N) 4).trans
      ((final m h_tile c).trans (GK_args m c))
  exact congrArg (fun x : FVec Ideal SQxT .f32 => shapeCast S16x1024x64 x shapeCasts_S16384x64_S16x1024x64) hA

end Cert.KernelArr

namespace Cert.KernelArr

open Idealize.ShloMosaic Idealize.ShloMosaic.TcCoe Idealize.ShloMosaic.ValueIdx Idealize.SL.Sem
open Idealize.ShloMosaic.Pipeline (Dat)
open Cert.KernelIdeal Cert.KernelIdeal.Gen Cert.KernelTile Cert.CostSpec

/-- THE RUN: from any memory with zero counters every weakly fair execution of the program terminates with the
    result buffer at the cost array of the flattened arguments and the one-hot rows of the class ids, reshaped to
    `[16, 1024, 64]`, and the four arguments unchanged — given that the body's stored value is the tile of its
    four blocks. -/
theorem kernel_run (h_tile : ∀ x0 x1 x2 x3, out0_4 (F := Ideal) x0 x1 x2 x3 = tileG x0 x1 x2 x3)
    (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
        = shapeCast S16x1024x64
            (GK (shapeCast S16384x63 (m ((c.tc : Thread nD τ).loc main_arg1)) shapeCasts_S16x1024x63_S16384x63)
              (shapeCast S16384x2 (m ((c.tc : Thread nD τ).loc main_arg0)) shapeCasts_S16x1024x2_S16384x2)
              (m ((c.tc : Thread nD τ).loc main_arg2)) (oneHot (m ((c.tc : Thread nD τ).loc main_arg3))))
            shapeCasts_S16384x64_S16x1024x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_main_v4 m h_tile c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelArr

end
-- ==== Proof.lean ====
/-
  The certificate of the matching-cost kernel against its jnp reference, over the extended reals.

  Both programs flatten the logits to `[16384, 2]` and the keypoints to `[16384, 63]`, compute a `[16384, 64]` cost
  matrix and reshape it to `[16, 1024, 64]`. Entry `(r, t)` of the matrix is the masked L1 distance of query `r`'s
  keypoints from target `t`'s plus a focal classification term of the sigmoid of query `r`'s logit for target `t`'s
  class (`CostSpec`). The kernel computes it tile by tile, 4096 queries at a grid point (`KernelPay`, `KernelOut`,
  `KernelArr`), picking the class by one-hot rows its host code makes of the ids (`OneHot`); the reference computes it
  whole, picking the class by a column gather at the ids (`RefRead`, `StartIdx`). Under the precondition — every float
  input finite and every class id `0` or `1` (`PreFacts`) — the two spellings are one function (`CostSpec.GK_eq_GR`):
  the logits being real, the reference's squares `x ^ 2` are the kernel's products `x · x`; an id being a class, the
  one-hot row marks the column the gather reads. The frames of the two kernel programs are the generated ones; the
  reference's is its generated run; the idealization rewrote nothing.
-/
import proofs.«409327_j90804198572657_3_alg».proof.Defs
import proofs.«409327_j90804198572657_3_alg».proof.Proof.FrameKernel
import proofs.«409327_j90804198572657_3_alg».proof.Proof.FrameKernelIdeal
import proofs.«409327_j90804198572657_3_alg».proof.Proof.Gen.ReferenceIdeal.Run
import proofs.«409327_j90804198572657_3_alg».proof.Proof.Gen.ReferenceIdeal.Read
import proofs.«409327_j90804198572657_3_alg».proof.Proof.Gen.Pre_finite_inputs
import proofs.«409327_j90804198572657_3_alg».proof.Proof.CostSpec
import proofs.«409327_j90804198572657_3_alg».proof.Proof.PreFacts
import proofs.«409327_j90804198572657_3_alg».proof.Proof.OneHot
import proofs.«409327_j90804198572657_3_alg».proof.Proof.StartIdx
import proofs.«409327_j90804198572657_3_alg».proof.Proof.RefRead
import proofs.«409327_j90804198572657_3_alg».proof.Proof.KernelOut
import proofs.«409327_j90804198572657_3_alg».proof.Proof.KernelArr

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Under the precondition the kernel's spelling of the cost matrix, of the flattened arguments and the one-hot rows
    of the ids, is the reference's, of the flattened arguments and the start indices of the ids. -/
theorem cost_eq (a0 : FVec Ideal Cert.Pre_finite_inputs.S16x1024x2 .f32) (a1 : FVec Ideal Cert.Pre_finite_inputs.S16x1024x63 .f32)
    (a2 : FVec Ideal Cert.Pre_finite_inputs.S64x63 .f32) (a3 : IVec Cert.Pre_finite_inputs.S64 32)
    (hpre : Cert.Pre_finite_inputs.fn (F := Ideal) a0 a1 a2 a3 = fun _ => 1#1) :
    Cert.CostSpec.GK (shapeCast Cert.KernelIdeal.S16384x63 a1 Cert.KernelIdeal.Facts₀.shapeCasts_S16x1024x63_S16384x63)
        (shapeCast Cert.KernelIdeal.S16384x2 a0 Cert.KernelIdeal.Facts₀.shapeCasts_S16x1024x2_S16384x2) a2 (Cert.OneHot.oneHot a3)
      = Cert.CostSpec.GR (Cert.ReferenceIdeal.Read.val_main_v0 (F := Ideal) a0) (Cert.ReferenceIdeal.Read.val_main_v7 (F := Ideal) a1) a2
          (Cert.ReferenceIdeal.Read.val_main_v35 (F := Ideal) a3) := by
  refine Cert.CostSpec.GK_eq_GR _ _ _ _ _ (fun i => Cert.PreFacts.logits_real a0 a1 a2 a3 hpre _) (fun t => ?_)
  rcases Cert.PreFacts.ids_range a0 a1 a2 a3 hpre t with h | h
  · exact Or.inl ⟨(Cert.StartIdx.start_of_range a3 t (Or.inl h)).trans h, Cert.OneHot.oneHot_zero a3 t h⟩
  · exact Or.inr ⟨(Cert.StartIdx.start_of_range a3 t (Or.inr h)).trans h, Cert.OneHot.oneHot_one a3 t h⟩

/-- At the ideal instance, from memories agreeing on the arguments, the kernel's result array ends at the reshaped cost
    matrix in the kernel's spelling and the reference's at the reshaped cost matrix in the reference's: one array. -/
theorem algebraic : Cert.algebraic_KernelIdeal_ReferenceIdeal := by
  intro m ρ m' ρ' hpre hagree
  refine ⟨_, Cert.KernelArr.kernel_run Cert.KernelOut.out_tile m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v63_eq _ _ _ _).trans ((Cert.RefRead.ref_value _ _ _ _).trans ?_)
  exact congrArg (fun g => shapeCast Cert.ReferenceIdeal.S16x1024x64 g Cert.ReferenceIdeal.Facts₀.shapeCasts_S16384x64_S16x1024x64)
    (cost_eq _ _ _ _ (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
